-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1024 .f32) (main_arg1 : IVec S16384 32) (main_arg2 : FVec F S1000x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_c_2 : IVec S_ 32 := constantI S_ 32 1000#32
  let main_v9 : IVec S16384 32 := broadcastInDim S16384 ![] bcast_S_S16384 main_c_2
  let main_v10 : IVec S16384 1 := cmpi .slt main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  main_v12
-- ==== Kernel.lean ====
abbrev S16384x1024 : Shape := ⟨2, ![16384, 1024]⟩
abbrev S16384 : Shape := ⟨1, ![16384]⟩
abbrev S1000x1024 : Shape := ⟨2, ![1000, 1024]⟩
abbrev S32x1x512 : Shape := ⟨3, ![32, 1, 512]⟩
abbrev S_ : Shape := ⟨0, ![]⟩
abbrev S1024x1024 : Shape := ⟨2, ![1024, 1024]⟩
abbrev S1x1 : Shape := ⟨2, ![1, 1]⟩
abbrev S1x1x512 : Shape := ⟨3, ![1, 1, 512]⟩
abbrev S512x1024 : Shape := ⟨2, ![512, 1024]⟩
abbrev S1024x128 : Shape := ⟨2, ![1024, 128]⟩
abbrev S1x512 : Shape := ⟨2, ![1, 512]⟩
abbrev S1024x512 : Shape := ⟨2, ![1024, 512]⟩
abbrev S512 : Shape := ⟨1, ![512]⟩
abbrev S512x1 : Shape := ⟨2, ![512, 1]⟩
abbrev S512x128 : Shape := ⟨2, ![512, 128]⟩
abbrev S1024x1 : Shape := ⟨2, ![1024, 1]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S32x1x512, .i32⟩
  | .hbm, ⟨4, _⟩ => ⟨S_, .i32⟩
  | .hbm, ⟨5, _⟩ => ⟨S_, .f32⟩
  | .hbm, ⟨6, _⟩ => ⟨S1024x1024, .f32⟩
  | .hbm, ⟨7, _⟩ => ⟨S1x1, .f32⟩
  | .hbm, ⟨8, _⟩ => ⟨S_, .f32⟩
  | .local _ .vmem, ⟨0, _⟩ => ⟨S1x1x512, .i32⟩
  | .local _ .vmem, ⟨1, _⟩ => ⟨S1x1x512, .i32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1x1, .f32⟩
  | .local _ .vmem, ⟨6, _⟩ => ⟨S1024x1024, .f32⟩
  | .local _ .vmem, ⟨7, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v37 : BitVec 1 := Scalar.cmpi .eq arg0 c31_i32
  let v38 : BitVec 32 := Scalar.extui v37
  let c0_i32_18 : BitVec 32 := 0#32
  let v39 : BitVec 1 := Scalar.cmpi .ne v38 c0_i32_18
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16384_S32x1x512 : S16384.ShapeCasts S32x1x512
  pads_S1000x1024_S1024x1024_0240_000 : S1000x1024.Pads (![0, 0] : Fin 2 → Nat) ![24, 0] ![0, 0] S1024x1024
  h_S_ : 0 < S_.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x1024_S512x1024_0_0 : ∀ a, (![0, 0] : Fin 2 → Nat) a + S512x1024.size a ≤ S512x1024.size a
  h_S512x1024 : 0 < S512x1024.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  iota_S1024x512_d0_w32 : S1024x512.Iotas .tc 32 [0]
  broadcasts_S1x512_S1024x512 : S1x512.Broadcasts S1024x512
  natLt_1_32 : 1 < 32
  reduces_S512x1024_S512 : S512x1024.Reduces [1] S512
  shapeCasts_S512_S512x1 : S512.ShapeCasts S512x1
  iota_S512x128_d1_w32 : S512x128.Iotas .tc 32 [1]
  shapeCasts_S512x1_S512x1 : S512x1.ShapeCasts S512x1
  broadcasts_S512x1_S512x128 : S512x1.Broadcasts S512x128
  inb_S1024x128_S1024x1_0_0 : ∀ a, (![0, 0] : Fin 2 → Nat) a + S1024x1.size a ≤ S1024x128.size a
  h_S1024x1 : 0 < S1024x1.numel
  inb_S1024x128_S1024x1_0_1 : ∀ a, (![0, 1] : Fin 2 → Nat) a + S1024x1.size a ≤ S1024x128.size a
  reduces_S1024x1024_S1024 : S1024x1024.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x512_S512x1024_S1024x1024_1_0_0_1_n_n_wf : DotDims.WF S1024x512 S512x1024 S1024x1024 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S32x1x512.size a
  hwx0_0 : ∀ i : grid0.Coords, EltTy.bits .i32 = 32 ∨ (Rect.block (s := S32x1x512) S1x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S1000 : Shape := ⟨1, ![1000]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x1024, .f32⟩
  | .hbm, ⟨22, _⟩ => ⟨S16384x1024, .i1⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S1000, .f32⟩
  | .hbm, ⟨32, _⟩ => ⟨S16384x1, .i32⟩
  | .hbm, ⟨33, _⟩ => ⟨S1000, .f32⟩
  | .hbm, ⟨34, _⟩ => ⟨S_, .f32⟩
  | .hbm, ⟨35, _⟩ => ⟨S1000, .f32⟩
  | .hbm, ⟨36, _⟩ => ⟨S1000, .i1⟩
  | .hbm, ⟨37, _⟩ => ⟨S_, .f32⟩
  | .hbm, ⟨38, _⟩ => ⟨S_, .f32⟩
  | .hbm, ⟨39, _⟩ => ⟨S1000, .f32⟩
  | .hbm, ⟨40, _⟩ => ⟨S1000, .f32⟩
  | .hbm, ⟨41, _⟩ => ⟨S_, .f32⟩
  | .hbm, ⟨42, _⟩ => ⟨S1000, .f32⟩
  | .hbm, ⟨43, _⟩ => ⟨S1000, .i1⟩
  | .hbm, ⟨44, _⟩ => ⟨S1000, .f32⟩
  | .hbm, ⟨45, _⟩ => ⟨S_, .f32⟩
  | .hbm, ⟨46, _⟩ => ⟨S_, .f32⟩
  | .hbm, ⟨47, _⟩ => ⟨S1000, .f32⟩
  | .hbm, ⟨48, _⟩ => ⟨S1000, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_v9 : Ref sig .tc := ⟨.hbm, 40, rfl⟩
abbrev main_cst_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_v13 : Ref sig .tc := ⟨.hbm, 48, rfl⟩
abbrev main_cst_5 : Ref sig .tc := ⟨.hbm, 49, rfl⟩
abbrev main_v14 : Ref sig .tc := ⟨.hbm, 50, rfl⟩
abbrev main_cst_6 : Ref sig .tc := ⟨.hbm, 51, rfl⟩
abbrev main_v15 : Ref sig .tc := ⟨.hbm, 52, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1024_0 : S16384.BroadcastsInDim S16384x1024 (![0] : Fin 1 → Fin S16384x1024.rank)
  bcast_S_S16384x1024 : S_.BroadcastsInDim S16384x1024 (![] : Fin 0 → Fin S16384x1024.rank)
  reducesTo_S16384x1024_S16384_d1 : S16384x1024.ReducesTo [1] S16384
  bcast_S_S1000 : S_.BroadcastsInDim S1000 (![] : Fin 0 → Fin S1000.rank)
  reducesTo_S1000_S_d0 : S1000.ReducesTo [0] S_
  gather_S1000x1024_S16384x1_S16384x1024_1_0_n_n_0_1_11024_wf : GatherDims.WF S1000x1024 S16384x1 S16384x1024 [1] [0] [] [0] [] 1 ![1, 1024]
  scatter_S1000_S16384x1_S16384_n_0_0_1_wf : ScatterDims.WF S1000 S16384x1 S16384 [] [0] [0] 1

variable [Facts₀]

def gather_S1000x1024_S16384x1_S16384x1024_1_0_n_n_0_1_11024 : GatherDims S1000x1024 S16384x1 S16384x1024 where
  offsetDims := [1]
  collapsedSliceDims := [0]
  operandBatchingDims := []
  startIndicesBatchingDims := []
  startIndexMap := [0]
  indexVectorDim := 1
  sliceSizes := ![1, 1024]
  wf := gather_S1000x1024_S16384x1_S16384x1024_1_0_n_n_0_1_11024_wf
def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf

class Facts : Prop extends Facts₀ where

variable [Facts]
-- ==== Proof.LossSpec.lean ====
/-
  The center loss as a function of the three argument arrays `x : [16384, 1024]`, `labels : [16384]`,
  `centers : [1000, 1024]`, over the extended reals, in the two arrangements the programs compute.

  For a class `c` write `R_c = { j | labels j = c }` (the label read as a signed integer). The loss is
  `(∑_c N(p_c)) / 1000` with `N p = √p` where `p > 0` and `0` elsewhere, and the per-class sum `p_c` is

  * the sum of squared distances  `∑_{j ∈ R_c} ∑_d (x j d − centers c d)²`                     (`classDist`, classes 0 … 999);
  * the expanded square `T_c − 2 · ∑_d S_c d · centers c d + n_c · ∑_d (centers c d)²`           (`classExpanded`, classes 0 … 1023)
    with `S_c d = ∑_{j ∈ R_c} x j d`, `T_c = ∑_{j ∈ R_c} ∑_d (x j d)²`, `n_c = |R_c|`, the centers padded with
    24 zero rows.

  The float literals stay as their words: the same word on both sides is never evaluated.
-/
import Idealize.ShloMosaic.PureOps.Ideal
import Idealize.ShloMosaic.PureOps.Ideal.Laws
import Idealize.ShloMosaic.Lib.ValueIdx

noncomputable section

namespace Cert.CenterLoss

open Idealize.ShloMosaic Idealize.ShloMosaic.ValueIdx

abbrev SX : Shape := ⟨2, ![16384, 1024]⟩
abbrev SLab : Shape := ⟨1, ![16384]⟩
abbrev SCen : Shape := ⟨2, ![1000, 1024]⟩

/-- `N p`: the square root of a positive per-class sum, the zero word's value otherwise (the inner guard feeds
    the square root `1` where the sum is not positive, and that root is then discarded). -/
def classNorm (p : EReal) : EReal :=
  Scalar.select (Ideal.cmp .ogt p (Ideal.ofBits .f32 0x00000000#32))
    (Ideal.sqrt (Scalar.select (Ideal.cmp .ogt p (Ideal.ofBits .f32 0x00000000#32)) p (Ideal.ofBits .f32 0x3F800000#32)))
    (Ideal.ofBits .f32 0x00000000#32)

/-! ## The sum of squared distances, class by class -/

/-- `∑_{j ∈ R_c} ∑_d (x j d − centers c d)²`. -/
def classDist (x : SX.Idx → EReal) (lab : SLab.Idx → BitVec 32) (cen : SCen.Idx → EReal) (c : Fin 1000) : EReal :=
  ∑ j : Fin 16384, if (lab (ix1 j)).toInt = (c.val : ℤ) then
    ∑ d : Fin 1024, (x (ix2 j d) - cen (ix2 c d)) * (x (ix2 j d) - cen (ix2 c d)) else 0

/-- The loss over the thousand classes' distances. -/
def lossDist (x : SX.Idx → EReal) (lab : SLab.Idx → BitVec 32) (cen : SCen.Idx → EReal) : EReal :=
  Ideal.div (∑ c : Fin 1000, classNorm (classDist x lab cen c)) (Ideal.ofBits .f32 0x447A0000#32)

/-! ## The expanded square, over 1024 classes of which the last 24 have a zero center -/

/-- `S_c d`: the sum of the rows of class `c`, column `d`. -/
def rowSum (x : SX.Idx → EReal) (lab : SLab.Idx → BitVec 32) (c d : Fin 1024) : EReal :=
  ∑ j : Fin 16384, if (lab (ix1 j)).toInt = (c.val : ℤ) then x (ix2 j d) else 0

/-- `T_c`: the sum of the squared norms of the rows of class `c`. -/
def sqSum (x : SX.Idx → EReal) (lab : SLab.Idx → BitVec 32) (c : Fin 1024) : EReal :=
  ∑ j : Fin 16384, if (lab (ix1 j)).toInt = (c.val : ℤ) then ∑ d : Fin 1024, x (ix2 j d) * x (ix2 j d) else 0

/-- `n_c`: the number of rows of class `c`, each counted as the word of `1.0`. -/
def count (lab : SLab.Idx → BitVec 32) (c : Fin 1024) : EReal :=
  ∑ j : Fin 16384, if (lab (ix1 j)).toInt = (c.val : ℤ) then Ideal.ofBits .f32 0x3F800000#32 else 0

/-- The centers with 24 zero rows appended. -/
def cenPad (cen : SCen.Idx → EReal) (c d : Fin 1024) : EReal :=
  if h : c.val < 1000 then cen (ix2 (⟨c.val, h⟩ : Fin 1000) d) else 0

/-- `T_c − 2 · ∑_d S_c d · centers c d + n_c · ∑_d (centers c d)²`. -/
def classExpanded (x : SX.Idx → EReal) (lab : SLab.Idx → BitVec 32) (cen : SCen.Idx → EReal) (c : Fin 1024) : EReal :=
  (sqSum x lab c - Ideal.ofBits .f32 0x40000000#32 * ∑ d : Fin 1024, rowSum x lab c d * cenPad cen c d)
    + count lab c * ∑ d : Fin 1024, cenPad cen c d * cenPad cen c d

/-- The loss over the 1024 expanded squares. -/
def lossExpanded (x : SX.Idx → EReal) (lab : SLab.Idx → BitVec 32) (cen : SCen.Idx → EReal) : EReal :=
  Ideal.div (∑ c : Fin 1024, classNorm (classExpanded x lab cen c)) (Ideal.ofBits .f32 0x447A0000#32)

end Cert.CenterLoss

end
-- ==== Proof.LossAlgebra.lean ====
/-
  The expanded square and the sum of squared distances give the same center loss.

  With every entry of `x` and `centers` a real number, every quantity of the specification is the coercion of
  a real, and over the reals, for a class `c < 1000` with rows `R_c` and center `m`,

    `∑_{j ∈ R_c} ∑_d (x j d − m d)² = T_c − 2 · ∑_d S_c d · m d + n_c · ∑_d (m d)²`.

  A class `1000 ≤ c < 1024` has no row (every label is below 1000) and a zero center, so its expanded square is
  `0`, whose norm term is `0`: the 24 padded classes add nothing to the sum.
-/
import proofs.«118221_g120259084421_cont_main3_733_3_alg».proof.Proof.LossSpec
import Mathlib.Data.EReal.Operations
import Mathlib.Algebra.BigOperators.Fin
import Mathlib.Algebra.BigOperators.Group.Finset.Basic
import Mathlib.Algebra.BigOperators.Ring.Finset
import Mathlib.Tactic.Ring
import Mathlib.Tactic.NormNum

noncomputable section

namespace Cert.CenterLoss

open Idealize.ShloMosaic Idealize.ShloMosaic.ValueIdx

/-! ## Coercion of finite sums and of conditionals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion goes inside a conditional. -/
theorem coe_ite (P : Prop) [Decidable P] (a b : ℝ) :
    ((if P then a else b : ℝ) : EReal) = if P then (a : EReal) else (b : EReal) := by
  split <;> rfl

/-! ## The literal words -/

/-- The word of `2.0`. -/
theorem ofBits_two : Ideal.ofBits .f32 0x40000000#32 = ((2 : ℝ) : EReal) := by
  simp [Ideal.ofBits, Ideal.ieee, -EReal.coe_mul]; norm_num

/-- The word of `1.0`. -/
theorem ofBits_one : Ideal.ofBits .f32 0x3F800000#32 = ((1 : ℝ) : EReal) := by
  simp [Ideal.ofBits, Ideal.ieee, -EReal.coe_mul]; norm_num

/-! ## The expansion of the square over the reals -/

section Expand

variable {ι κ : Type*} [Fintype ι] [Fintype κ] (P : ι → Prop) [DecidablePred P] (a : ι → κ → ℝ) (m : κ → ℝ)

/-- `∑_{j ∈ R} ∑_d (a j d − m d)² = T − 2 · ∑_d S_d · m d + n · ∑_d (m d)²` over the reals, `R` the set where
    `P` holds. -/
theorem expand_real :
    ((∑ j, if P j then ∑ d, a j d * a j d else 0) - 2 * ∑ d, (∑ j, if P j then a j d else 0) * m d)
        + (∑ j, if P j then (1 : ℝ) else 0) * ∑ d, m d * m d
      = ∑ j, if P j then ∑ d, (a j d - m d) * (a j d - m d) else 0 := by
  simp only [← Finset.sum_filter]
  have h1 : ∑ d, (∑ j ∈ Finset.univ.filter P, a j d) * m d
      = ∑ j ∈ Finset.univ.filter P, ∑ d, a j d * m d := by
    rw [Finset.sum_comm]
    exact Finset.sum_congr rfl (fun d _ => Finset.sum_mul _ _ _)
  have h2 : (∑ _j ∈ Finset.univ.filter P, (1 : ℝ)) * ∑ d, m d * m d
      = ∑ _j ∈ Finset.univ.filter P, ∑ d, m d * m d := by
    rw [Finset.sum_mul]
    exact Finset.sum_congr rfl (fun j _ => one_mul _)
  rw [h1, h2, Finset.mul_sum, ← Finset.sum_sub_distrib, ← Finset.sum_add_distrib]
  refine Finset.sum_congr rfl (fun j _ => ?_)
  rw [Finset.mul_sum, ← Finset.sum_sub_distrib, ← Finset.sum_add_distrib]
  refine Finset.sum_congr rfl (fun d _ => ?_)
  ring

/-- The same identity between the extended reals' sums of coerced reals. -/
theorem expand_ereal :
    ((∑ j, if P j then ∑ d, (a j d : EReal) * (a j d : EReal) else 0)
          - ((2 : ℝ) : EReal) * ∑ d, (∑ j, if P j then (a j d : EReal) else 0) * (m d : EReal))
        + (∑ j, if P j then ((1 : ℝ) : EReal) else 0) * ∑ d, (m d : EReal) * (m d : EReal)
      = ∑ j, if P j then ∑ d, ((a j d : EReal) - (m d : EReal)) * ((a j d : EReal) - (m d : EReal)) else 0 := by
  have hT : (∑ j, if P j then ∑ d, (a j d : EReal) * (a j d : EReal) else 0)
      = ((∑ j, if P j then ∑ d, a j d * a j d else 0 : ℝ) : EReal) := by
    simp only [coe_sum, coe_ite, EReal.coe_mul, EReal.coe_zero]
  have hS : (∑ d, (∑ j, if P j then (a j d : EReal) else 0) * (m d : EReal))
      = ((∑ d, (∑ j, if P j then a j d else 0) * m d : ℝ) : EReal) := by
    simp only [coe_sum, coe_ite, EReal.coe_mul, EReal.coe_zero]
  have hn : (∑ j, if P j then ((1 : ℝ) : EReal) else 0)
      = ((∑ j, if P j then (1 : ℝ) else 0 : ℝ) : EReal) := by
    simp only [coe_sum, coe_ite, EReal.coe_zero]
  have hm : (∑ d, (m d : EReal) * (m d : EReal)) = ((∑ d, m d * m d : ℝ) : EReal) := by
    simp only [coe_sum, EReal.coe_mul]
  have hD : (∑ j, if P j then ∑ d, ((a j d : EReal) - (m d : EReal)) * ((a j d : EReal) - (m d : EReal)) else 0)
      = ((∑ j, if P j then ∑ d, (a j d - m d) * (a j d - m d) else 0 : ℝ) : EReal) := by
    simp only [coe_sum, coe_ite, EReal.coe_mul, EReal.coe_sub, EReal.coe_zero]
  rw [hT, hS, hn, hm, hD, ← EReal.coe_mul, ← EReal.coe_sub, ← EReal.coe_mul, ← EReal.coe_add, expand_real]

end Expand

/-! ## A class below 1000 -/

/-- For a class `c < 1000` the expanded square is the sum of squared distances. -/
theorem classExpanded_low (x : SX.Idx → EReal) (lab : SLab.Idx → BitVec 32) (cen : SCen.Idx → EReal)
    (xr : SX.Idx → ℝ) (hxr : ∀ i, x i = (xr i : EReal)) (cr : SCen.Idx → ℝ) (hcr : ∀ i, cen i = (cr i : EReal))
    (c : Fin 1000) :
    classExpanded x lab cen (⟨c.val, by have := c.isLt; omega⟩ : Fin 1024) = classDist x lab cen c := by
  unfold classExpanded classDist sqSum rowSum count cenPad
  simp only [dif_pos c.isLt, hxr, hcr, ofBits_two, ofBits_one, Fin.eta]
  exact expand_ereal (fun j : Fin 16384 => (lab (ix1 j)).toInt = (c.val : ℤ))
    (fun j d => xr (ix2 j d)) (fun d => cr (ix2 c d))

/-! ## A class from 1000 to 1023 -/

/-- A class `1000 ≤ c` has no row and a zero center: its expanded square is `0`. -/
theorem classExpanded_high (x : SX.Idx → EReal) (lab : SLab.Idx → BitVec 32) (cen : SCen.Idx → EReal)
    (hlab : ∀ j, (lab j).toInt < 1000) (c : Fin 1024) (hc : 1000 ≤ c.val) :
    classExpanded x lab cen c = 0 := by
  have hne : ∀ j : Fin 16384, ¬ (lab (ix1 j)).toInt = (c.val : ℤ) := by
    intro j h
    have := hlab (ix1 j)
    omega
  have hT : sqSum x lab c = 0 := Finset.sum_eq_zero (fun j _ => if_neg (hne j))
  have hS : ∀ d, rowSum x lab c d = 0 := fun d => Finset.sum_eq_zero (fun j _ => if_neg (hne j))
  have hn : count lab c = 0 := Finset.sum_eq_zero (fun j _ => if_neg (hne j))
  have hm : ∀ d, cenPad cen c d = 0 := fun d => dif_neg (by omega)
  unfold classExpanded
  simp only [hT, hS, hn, hm, mul_zero, zero_mul, Finset.sum_const_zero, sub_zero, add_zero]

/-- The norm term of `0` is `0`: `0 > 0` fails, and the guard picks the zero word. -/
theorem classNorm_zero : classNorm 0 = 0 := by
  have h : Ideal.cmp .ogt (0 : EReal) 0 = 0#1 := by simp [Ideal.cmp]
  unfold classNorm
  rw [Ideal.ofBits_zero_f32, h, select_zero]

/-! ## The two losses -/

/-- The loss over the 1024 expanded squares is the loss over the thousand classes' distances. -/
theorem lossExpanded_eq_lossDist (x : SX.Idx → EReal) (lab : SLab.Idx → BitVec 32) (cen : SCen.Idx → EReal)
    (hx : ∀ i, ∃ r : ℝ, x i = (r : EReal)) (hc : ∀ i, ∃ r : ℝ, cen i = (r : EReal))
    (hlab : ∀ j, (lab j).toInt < 1000) :
    lossExpanded x lab cen = lossDist x lab cen := by
  choose xr hxr using hx
  choose cr hcr using hc
  unfold lossExpanded lossDist
  refine congrArg (fun s => Ideal.div s (Ideal.ofBits .f32 0x447A0000#32)) ?_
  symm
  refine Fintype.sum_of_injective (fun c : Fin 1000 => (⟨c.val, by have := c.isLt; omega⟩ : Fin 1024)) ?_ _ _ ?_ ?_
  · intro a b h
    exact Fin.ext (show a.val = b.val from congrArg (fun z : Fin 1024 => z.val) h)
  · intro c hc'
    have hge : 1000 ≤ c.val := by
      by_contra hlt
      exact hc' ⟨⟨c.val, by omega⟩, Fin.ext rfl⟩
    rw [classExpanded_high x lab cen hlab c hge, classNorm_zero]
  · intro c
    exact congrArg classNorm (classExpanded_low x lab cen xr hxr cr hcr c).symm

end Cert.CenterLoss

end
-- ==== Proof.PreFacts.lean ====
/-
  The printed precondition read back at the extended reals: when the predicate is true, every entry of
  the first and of the third argument is a real number (its absolute value is below +∞), and every label
  is, as a signed integer, below 1000.
-/
import proofs.«118221_g120259084421_cont_main3_733_3_alg».proof.Pre_finite_inputs
import proofs.«118221_g120259084421_cont_main3_733_3_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.StableHlo.Predicate
import Idealize.ShloMosaic.Lib.ValueIdx

noncomputable section

namespace Cert.Pre_finite_inputs.Decode

open Idealize.ShloMosaic Cert.Pre_finite_inputs

/-- The shape of rank zero has one index. -/
instance : Subsingleton S_.Idx := ⟨fun a b => funext fun d => d.elim0⟩

/-- The word of +∞ denotes the top element. -/
theorem inf_eq_top : Ideal.ofBits .f32 0x7F800000#32 = (⊤ : EReal) := by
  simp [Ideal.ofBits, Ideal.ieee]

/-- An extended real whose absolute value max a (-a) lies strictly below +∞ is a real number. -/
theorem real_of_abs_lt (a : EReal)
    (h : Ideal.cmp .olt (max a (-a)) (Ideal.ofBits .f32 0x7F800000#32) = 1#1) : ∃ r : ℝ, a = (r : EReal) := by
  rw [inf_eq_top] at h
  induction a using EReal.rec with
  | bot => simp [Ideal.cmp] at h
  | coe r => exact ⟨r, rfl⟩
  | top => simp [Ideal.cmp] at h

/-- One entry of the first finiteness test. -/
theorem elem_real {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  refine real_of_abs_lt (x i) ?_
  rw [← h]
  show _ = Ideal.cmp .olt (max (x i) (-(x i))) (broadcastInDim s ![] hb (constant (F := Ideal) S_ .f32 0x7F800000#32) i)
  rw [StableHlo.Predicate.bcast_scalar hb Facts.h_S_]
  rfl

/-- One label test: the signed comparison with the splat 1000. -/
theorem elem_lt {s : Shape} (hb : S_.BroadcastsInDim s (![] : Fin 0 → Fin s.rank)) (lab : IVec s 32) (j : s.Idx)
    (h : cmpi .slt lab (broadcastInDim s ![] hb (constantI S_ 32 1000#32)) j = 1#1) : (lab j).toInt < 1000 := by
  have h' : IntOp.cmpi .slt (lab j) (broadcastInDim s ![] hb (constantI S_ 32 1000#32) j) = 1#1 := h
  rw [StableHlo.Predicate.bcast_scalar hb Facts.h_S_] at h'
  have := IntOp.cmpi_slt.1 h'
  have e : (constantI S_ 32 1000#32 (Shape.Idx.first Facts.h_S_)).toInt = 1000 := by
    show (1000#32 : BitVec 32).toInt = 1000
    decide
  omega

theorem of_pre (x : FVec Ideal S16384x1024 .f32) (lab : IVec S16384 32) (cen : FVec Ideal S1000x1024 .f32)
    (h : Cert.Pre_finite_inputs.fn (F := Ideal) x lab cen = fun _ => 1#1) :
    (∀ i, ∃ r : ℝ, x i = (r : EReal)) ∧ (∀ i, ∃ r : ℝ, cen i = (r : EReal)) ∧ (∀ j, (lab j).toInt < 1000) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun j => ?_⟩
  · exact elem_real _ x i (Host.reduce_andi_all _ _ _ _ _ h1 i)
  · exact elem_real _ cen i (Host.reduce_andi_all _ _ _ _ _ h2 i)
  · exact elem_lt _ lab j (Host.reduce_andi_all _ _ _ _ _ h3 j)

end Cert.Pre_finite_inputs.Decode

end
-- ==== Proof.RefTerm.lean ====
/-
  The reference's result as one pure function of its three argument arrays: the operations of its `@main`
  composed in order, the outlined functions (`jnp.take`, the two `jnp.where`) composed at their calls.

  `takeRows centers labels` is `jnp.take(centers, labels, axis=0)` in jnp's default mode: a negative label is
  shifted up by 1000, the row is gathered at the shifted label, and a row whose shifted label lies outside
  `0 … 999` is filled with the quiet-NaN word. `result x labels centers` is then the squared distance of every
  row to its gathered center summed over the columns, scatter-added by the (unshifted) label into 1000 classes,
  the guarded square root of every class sum, their sum, divided by 1000.
-/
import proofs.«118221_g120259084421_cont_main3_733_3_alg».proof.ReferenceIdeal
import proofs.«118221_g120259084421_cont_main3_733_3_alg».proof.Proof.Gen.ReferenceIdeal

noncomputable section

namespace Cert.ReferenceIdeal.RefValue

open Idealize.ShloMosaic Cert.ReferenceIdeal Cert.ReferenceIdeal.Facts₀

variable {F : FTy → Type} [FloatOps F]

/-- `jnp.take(centers, labels, axis=0)`: the body of the outlined `@_take`, its inner `@_where` a `select`. -/
def takeRows (cen : FVec F S1000x1024 .f32) (lab : IVec S16384 32) : FVec F S16384x1024 .f32 :=
  let c : IVec S_ 32 := constantI S_ 32 0#32
  let v0 : IVec S16384 32 := broadcastInDim S16384 ![] bcast_S_S16384 c
  let v1 : IVec S16384 1 := cmpi .slt lab v0
  let c_0 : IVec S_ 32 := constantI S_ 32 1000#32
  let v2 : IVec S16384 32 := broadcastInDim S16384 ![] bcast_S_S16384 c_0
  let v3 : IVec S16384 32 := addi lab v2
  let v4 : IVec S16384 32 := select v1 v3 lab
  let v5 : IVec S16384x1 32 := broadcastInDim S16384x1 ![0] bcast_S16384_S16384x1_0 v4
  let c_1 : IVec S1 32 := constantI S1 32 999#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := Host.reduce IntOp.andi v11 c_3 reducesTo_S16384x1_S16384_d1 h_S_
  let v13 : FVec F S16384x1024 .f32 := Host.gather gather_S1000x1024_S16384x1_S16384x1024_1_0_n_n_0_1_11024 cen v5
  let v14 : IVec S16384x1024 1 := broadcastInDim S16384x1024 ![0] bcast_S16384_S16384x1024_0 v12
  let cst : FVec F S_ .f32 := constant S_ .f32 0x7FC00000#32
  let v15 : FVec F S16384x1024 .f32 := broadcastInDim S16384x1024 ![] bcast_S_S16384x1024 cst
  select v14 v13 v15

/-- The per-class sums: squared distances summed over the columns, scatter-added by label. -/
def classSums (x : FVec F S16384x1024 .f32) (lab : IVec S16384 32) (cen : FVec F S1000x1024 .f32) : FVec F S1000 .f32 :=
  let v0 : FVec F S16384x1024 .f32 := takeRows cen lab
  let v1 : FVec F S16384x1024 .f32 := subf x v0
  let v2 : FVec F S16384x1024 .f32 := mulf v1 v1
  let cst : FVec F S_ .f32 := constant S_ .f32 0x00000000#32
  let v3 : FVec F S16384 .f32 := Host.reduceAdd v2 cst reducesTo_S16384x1024_S16384_d1 h_S_
  let cst_0 : FVec F S_ .f32 := constant S_ .f32 0x00000000#32
  let v4 : FVec F S1000 .f32 := broadcastInDim S1000 ![] bcast_S_S1000 cst_0
  let v5 : IVec S16384x1 32 := broadcastInDim S16384x1 ![0] bcast_S16384_S16384x1_0 lab
  Host.scatterAdd scatter_S1000_S16384x1_S16384_n_0_0_1 v4 v5 v3

/-- From the per-class sums to the loss: the guarded square roots, their sum, the quotient by 1000. -/
def lossOf (v6 : FVec F S1000 .f32) : FVec F S_ .f32 :=
  let cst_1 : FVec F S_ .f32 := constant S_ .f32 0x00000000#32
  let v7 : FVec F S1000 .f32 := broadcastInDim S1000 ![] bcast_S_S1000 cst_1
  let v8 : IVec S1000 1 := cmpf .ogt v6 v7
  let cst_2 : FVec F S_ .f32 := constant S_ .f32 0x3F800000#32
  let w0 : FVec F S_ .f32 := id cst_2
  let w1 : FVec F S1000 .f32 := broadcastInDim S1000 ![] bcast_S_S1000 w0
  let v9 : FVec F S1000 .f32 := select v8 v6 w1
  let cst_3 : FVec F S_ .f32 := constant S_ .f32 0x00000000#32
  let v10 : FVec F S1000 .f32 := broadcastInDim S1000 ![] bcast_S_S1000 cst_3
  let v11 : IVec S1000 1 := cmpf .ogt v6 v10
  let v12 : FVec F S1000 .f32 := Host.sqrt v9
  let cst_4 : FVec F S_ .f32 := constant S_ .f32 0x00000000#32
  let u0 : FVec F S_ .f32 := id cst_4
  let u1 : FVec F S1000 .f32 := broadcastInDim S1000 ![] bcast_S_S1000 u0
  let v13 : FVec F S1000 .f32 := select v11 v12 u1
  let cst_5 : FVec F S_ .f32 := constant S_ .f32 0x00000000#32
  let v14 : FVec F S_ .f32 := Host.reduceAdd v13 cst_5 reducesTo_S1000_S_d0 h_S_
  let cst_6 : FVec F S_ .f32 := constant S_ .f32 0x447A0000#32
  Host.divf v14 cst_6

/-- The reference's result. -/
def result (x : FVec F S16384x1024 .f32) (lab : IVec S16384 32) (cen : FVec F S1000x1024 .f32) : FVec F S_ .f32 :=
  lossOf (classSums x lab cen)

end Cert.ReferenceIdeal.RefValue

end
-- ==== Proof.RefRun.lean ====
/-
  The reference's run: its `@main` is a straight line of fifty host operations once the outlined functions
  (`jnp.take` with its inner `jnp.where`, and the two scalar `jnp.where`) are substituted at their calls, each
  over the buffers of that call. Every weakly fair execution terminates; the result buffer then holds the
  composed pure term `RefValue.result` of the three argument arrays, and the arguments are unchanged.
-/
import proofs.«118221_g120259084421_cont_main3_733_3_alg».proof.ReferenceIdeal
import proofs.«118221_g120259084421_cont_main3_733_3_alg».proof.Proof.Gen.ReferenceIdeal
import proofs.«118221_g120259084421_cont_main3_733_3_alg».proof.Proof.RefTerm
import Idealize.ShloMosaic.Lib.StableHlo.Run

noncomputable section

namespace Cert.ReferenceIdeal.RefValue

open Idealize.ShloMosaic Cert.ReferenceIdeal Cert.ReferenceIdeal.Facts₀
open Idealize.ShloMosaic.TcCoe Idealize.SL.Sem Idealize.ShloMosaic.StableHlo

variable {F : FTy → Type} [FloatOps F]

/-- The operations of `@main` in order, the calls unfolded: the twenty-three of `jnp.take` (the seventh is its
    inner `jnp.where`'s select) over the first call's buffers, then `@main`'s own, with the three operations of
    each scalar `jnp.where` (the scalar converted to its own type, broadcast, the select) at its call. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 1000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000x1024_S16384x1_S16384x1024_1_0_n_n_0_1_11024 x i),
    TRef.unary main_call0.v12 main_call0.v14 (broadcastInDim S16384x1024 ![0] bcast_S16384_S16384x1024_0),
    TRef.nullary main_call0.cst (constant S_ .f32 0x7FC00000#32),
    TRef.unary main_call0.cst main_call0.v15 (broadcastInDim S16384x1024 ![] bcast_S_S16384x1024),
    TRef.ternary main_call0.v14 main_call0.v13 main_call0.v15 main_call0.v16 select,
    binary main_arg0 main_v0 main_v1 (subf : (⟨S16384x1024, .f32⟩ : BufTy).Contents (Elt F) → (⟨S16384x1024, .f32⟩ : BufTy).Contents (Elt F) → (⟨S16384x1024, .f32⟩ : BufTy).Contents (Elt F)),
    binary main_v1 main_v1 main_v2 (mulf : (⟨S16384x1024, .f32⟩ : BufTy).Contents (Elt F) → (⟨S16384x1024, .f32⟩ : BufTy).Contents (Elt F) → (⟨S16384x1024, .f32⟩ : BufTy).Contents (Elt F)),
    nullary main_cst (constant S_ .f32 0x00000000#32),
    binary main_v2 main_cst main_v3 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    nullary main_cst_0 (constant S_ .f32 0x00000000#32),
    unary main_cst_0 main_v4 (broadcastInDim S1000 ![] bcast_S_S1000 : (⟨S_, .f32⟩ : BufTy).Contents (Elt F) → (⟨S1000, .f32⟩ : BufTy).Contents (Elt F)),
    unary main_arg1 main_v5 (broadcastInDim S16384x1 ![0] bcast_S16384_S16384x1_0 : (⟨S16384, .i32⟩ : BufTy).Contents (Elt F) → (⟨S16384x1, .i32⟩ : BufTy).Contents (Elt F)),
    ternary main_v4 main_v5 main_v3 main_v6 ((fun x i u => Host.scatterAdd scatter_S1000_S16384x1_S16384_n_0_0_1 x i u) : (⟨S1000, .f32⟩ : BufTy).Contents (Elt F) → (⟨S16384x1, .i32⟩ : BufTy).Contents (Elt F) → (⟨S16384, .f32⟩ : BufTy).Contents (Elt F) → (⟨S1000, .f32⟩ : BufTy).Contents (Elt F)),
    nullary main_cst_1 (constant S_ .f32 0x00000000#32),
    unary main_cst_1 main_v7 (broadcastInDim S1000 ![] bcast_S_S1000 : (⟨S_, .f32⟩ : BufTy).Contents (Elt F) → (⟨S1000, .f32⟩ : BufTy).Contents (Elt F)),
    binary main_v6 main_v7 main_v8 (cmpf .ogt : (⟨S1000, .f32⟩ : BufTy).Contents (Elt F) → (⟨S1000, .f32⟩ : BufTy).Contents (Elt F) → (⟨S1000, .i1⟩ : BufTy).Contents (Elt F)),
    nullary main_cst_2 (constant S_ .f32 0x3F800000#32),
    TRef.unary (.of main_cst_2) main_call1.v0 id,
    TRef.unary main_call1.v0 main_call1.v1 (broadcastInDim S1000 ![] bcast_S_S1000),
    TRef.ternary (.of main_v8) (.of main_v6) main_call1.v1 main_call1.v2 select,
    nullary main_cst_3 (constant S_ .f32 0x00000000#32),
    unary main_cst_3 main_v10 (broadcastInDim S1000 ![] bcast_S_S1000 : (⟨S_, .f32⟩ : BufTy).Contents (Elt F) → (⟨S1000, .f32⟩ : BufTy).Contents (Elt F)),
    binary main_v6 main_v10 main_v11 (cmpf .ogt : (⟨S1000, .f32⟩ : BufTy).Contents (Elt F) → (⟨S1000, .f32⟩ : BufTy).Contents (Elt F) → (⟨S1000, .i1⟩ : BufTy).Contents (Elt F)),
    unary main_v9 main_v12 (Host.sqrt : (⟨S1000, .f32⟩ : BufTy).Contents (Elt F) → (⟨S1000, .f32⟩ : BufTy).Contents (Elt F)),
    nullary main_cst_4 (constant S_ .f32 0x00000000#32),
    TRef.unary (.of main_cst_4) main_call2.v0 id,
    TRef.unary main_call2.v0 main_call2.v1 (broadcastInDim S1000 ![] bcast_S_S1000),
    TRef.ternary (.of main_v11) (.of main_v12) main_call2.v1 main_call2.v2 select,
    nullary main_cst_5 (constant S_ .f32 0x00000000#32),
    binary main_v13 main_cst_5 main_v14 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    nullary main_cst_6 (constant S_ .f32 0x447A0000#32),
    binary main_v14 main_cst_6 main_v15 (Host.divf : (⟨S_, .f32⟩ : BufTy).Contents (Elt F) → (⟨S_, .f32⟩ : BufTy).Contents (Elt F) → (⟨S_, .f32⟩ : BufTy).Contents (Elt F)) ]

-- fifty binds re-associated under the chain: one level of recursion per statement
set_option maxRecDepth 4096 in
/-- `@main` is that straight line: the outlined functions' bodies substituted at their calls and the calls'
    buffer records read at their fields, both sides are one chain of host steps once sequencing is
    re-associated. -/
theorem main_eq (c : Dev nD) : main (F := F) c = seq ops := by
  simp only [main, fn_take.body, fn_where.body, fn_where_0.body, seq, bind_assoc, pure_bind]

attribute [local irreducible] Host.reduce Host.reduceAdd Host.gather Host.scatterAdd Host.sqrt Host.divf in
set_option maxRecDepth 8192 in
/-- The fold of the operations at the result buffer is `result` of the arguments' contents: each operation
    writes its own buffer once and reads buffers written before it, so the fold at the last buffer rewrites,
    operation by operation, to the composed term (a buffer read at the operation that writes it is that
    operation's value, at any other what was there before); the transports along a typed reference's type
    equation are the identity at these literal references. The reductions, the gather, the scatter and the
    host's square root and quotient stay folded: the equation never looks inside them. -/
theorem out_eq (V : Valuation τ sig (Elt F)) :
    after ops V (main_v15 : DevRef τ sig)
      = result (F := F) (V (main_arg0 : DevRef τ sig)) (V (main_arg1 : DevRef τ sig)) (V (main_arg2 : DevRef τ sig)) := by
  after_results_simp
  simp only [TRef.ofBuf, TRef.toBuf, cast_eq]
  rfl

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

/-- No operation writes the third argument's buffer. -/
theorem arg2_eq (V : Valuation τ sig (Elt F)) :
    after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., nullary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., unary_bufs_sub .., ternary_bufs_sub ..,
    nullary_bufs_sub .., unary_bufs_sub .., binary_bufs_sub .., unary_bufs_sub .., nullary_bufs_sub ..,
    unary_bufs_sub .., unary_bufs_sub .., ternary_bufs_sub ..,
    nullary_bufs_sub .., binary_bufs_sub .., nullary_bufs_sub .., binary_bufs_sub ..⟩

/-- From any memory with zero counters every weakly fair execution of `@main` terminates, and every final
    state has each TensorCore buffer at the fold of the operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run: every weakly fair execution terminates with the result buffer at `result` of the
    three arguments' launch contents, the arguments unchanged. -/
theorem run {F : FTy → Type} [FloatOps F] (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v15)
          = result (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v15).trans (out_eq (launchContents m c)),
      (h c main_arg0).trans (arg0_eq (launchContents m c)),
      (h c main_arg1).trans (arg1_eq (launchContents m c)),
      (h c main_arg2).trans (arg2_eq (launchContents m c))⟩)
    (run_main m ρ)

end Cert.ReferenceIdeal.RefValue

end
-- ==== Proof.RefRead.lean ====
/-
  The reference's result, read at the ideal instance, is the center loss over the thousand classes' sums of
  squared distances.

  The scatter-add lands row `j`'s update in class `c` exactly when the label of row `j`, read as a signed
  integer, is `c`; a row that lands in a class therefore has its label in `0 … 999`, and for such a row the
  gathered center is row `label` of the centers: the label is not shifted, the in-range mask is set, and the
  clamped start index is the label itself. The rows that land nowhere do not enter any class sum, so what was
  gathered for them is immaterial.
-/
import proofs.«118221_g120259084421_cont_main3_733_3_alg».proof.Proof.RefTerm
import proofs.«118221_g120259084421_cont_main3_733_3_alg».proof.Proof.LossSpec
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws
import Idealize.ShloMosaic.PureOps.Reduce
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Facts₀

/-! ## Broadcasts read at an element -/

/-- A vector laid down the rows of an `[n, 1]` column reads, at `(p, 0)`, the vector at `p`. -/
theorem bcast_col_apply {α : Type} {n : Nat} (h : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A vector laid down the rows of an `[n, m]` rectangle reads, at `(p, q)`, the vector at `p`. -/
theorem bcast_rect_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-! ## The scatter's result index -/

/-- The scatter-indices position of row `j`'s one index component. -/
theorem scatter_siIdx (j : S16384.Idx) (c : Fin scatter_S1000_S16384x1_S16384_n_0_0_1.scatterDimsToOperandDims.length) :
    scatter_S1000_S16384x1_S16384_n_0_0_1.siIdx j c = ix2 (j 0) (0 : Fin 1) := by
  funext b
  refine Fin.ext ?_
  match b with
  | ⟨0, _⟩ => rfl
  | ⟨1, _⟩ =>
    have := c.isLt
    show c.val = 0
    change c.val < 1 at this
    omega

/-- The start of row `j`'s window on the class axis: its label, read signed. -/
theorem scatter_start (idx : IVec S16384x1 32) (j : S16384.Idx) (a : Fin S1000.rank) :
    scatter_S1000_S16384x1_S16384_n_0_0_1.start j idx a = (idx (ix2 (j 0) (0 : Fin 1))).toInt := by
  have ha : a = (0 : Fin 1) := Subsingleton.elim (α := Fin 1) _ _
  subst ha
  unfold ScatterDims.start
  rw [dif_pos (show (0 : Fin 1) ∈ scatter_S1000_S16384x1_S16384_n_0_0_1.scatterDimsToOperandDims from List.mem_singleton.mpr rfl)]
  exact congrArg (fun k => (idx k).toInt) (scatter_siIdx j _)

/-- The class axis is an inserted window axis: no window coordinate. -/
theorem scatter_window (j : S16384.Idx) (a : Fin S1000.rank) :
    scatter_S1000_S16384x1_S16384_n_0_0_1.window j a = 0 := by
  have ha : a = (0 : Fin 1) := Subsingleton.elim (α := Fin 1) _ _
  subst ha
  unfold ScatterDims.window
  rw [dif_neg (by decide)]

/-- Row `j` lands in class `i` exactly when its label, read signed, is `i`. -/
theorem scatter_resultIdx?_eq_some_iff (idx : IVec S16384x1 32) (j : S16384.Idx) (i : S1000.Idx) :
    scatter_S1000_S16384x1_S16384_n_0_0_1.resultIdx? j idx = some i
      ↔ (idx (ix2 (j 0) (0 : Fin 1))).toInt = ((i 0).val : ℤ) := by
  have hi : (i 0).val < 1000 := (i 0).isLt
  unfold ScatterDims.resultIdx?
  simp only [scatter_start, scatter_window, Int.add_zero, Nat.cast_zero]
  split
  · next h =>
    have h0 := h (0 : Fin 1)
    change 0 ≤ (idx (ix2 (j 0) (0 : Fin 1))).toInt ∧ (idx (ix2 (j 0) (0 : Fin 1))).toInt < (1000 : ℕ) at h0
    constructor
    · intro e
      have e' := congrFun (Option.some.inj e) (0 : Fin 1)
      have e'' : (idx (ix2 (j 0) (0 : Fin 1))).toInt.toNat = (i 0).val := congrArg Fin.val e'
      omega
    · intro e
      refine congrArg some (funext fun a => ?_)
      have ha : a = (0 : Fin 1) := Subsingleton.elim (α := Fin 1) _ _
      subst ha
      refine Fin.ext ?_
      show (idx (ix2 (j 0) (0 : Fin 1))).toInt.toNat = (i 0).val
      omega
  · next h =>
    constructor
    · intro e; exact absurd e (by simp)
    · intro e
      exfalso
      apply h
      intro a
      have ha : a = (0 : Fin 1) := Subsingleton.elim (α := Fin 1) _ _
      subst ha
      show 0 ≤ (idx (ix2 (j 0) (0 : Fin 1))).toInt ∧ (idx (ix2 (j 0) (0 : Fin 1))).toInt < (1000 : ℕ)
      omega

/-- The same over rows and classes as coordinates. -/
theorem scatter_resultIdx?_ix1 (idx : IVec S16384x1 32) (j : Fin 16384) (c : Fin 1000) :
    scatter_S1000_S16384x1_S16384_n_0_0_1.resultIdx? (ix1 j) idx = some (ix1 c)
      ↔ (idx (ix2 j (0 : Fin 1))).toInt = (c.val : ℤ) :=
  scatter_resultIdx?_eq_some_iff idx (ix1 j) (ix1 c)

/-! ## The row gather read at an element -/

/-- The start-indices position of row `j`'s one index component. -/
theorem gather_siIdx (y : S16384x1024.Idx)
    (c : Fin gather_S1000x1024_S16384x1_S16384x1024_1_0_n_n_0_1_11024.startIndexMap.length) :
    gather_S1000x1024_S16384x1_S16384x1024_1_0_n_n_0_1_11024.siIdx y c = ix2 (y 0) (0 : Fin 1) := by
  funext b
  refine Fin.ext ?_
  match b with
  | ⟨0, _⟩ => rfl
  | ⟨1, _⟩ =>
    have := c.isLt
    show c.val = 0
    change c.val < 1 at this
    omega

/-- The operand's row the gather reads for result row `j`: the start index, read signed and clamped into `0 … 999`. -/
theorem gather_operand_row (idx : IVec S16384x1 32) (y : S16384x1024.Idx) :
    (gather_S1000x1024_S16384x1_S16384x1024_1_0_n_n_0_1_11024.operandIdx y idx (0 : Fin 2)).val
      = min (idx (ix2 (y 0) (0 : Fin 1))).toInt.toNat 999 := by
  show gather_S1000x1024_S16384x1_S16384x1024_1_0_n_n_0_1_11024.start y idx (0 : Fin 2)
      + gather_S1000x1024_S16384x1_S16384x1024_1_0_n_n_0_1_11024.batchCoord y (0 : Fin 2)
      + gather_S1000x1024_S16384x1_S16384x1024_1_0_n_n_0_1_11024.offCoord y (0 : Fin 2) = _
  rw [GatherDims.batchCoord_eq_zero _ _ _ List.not_mem_nil, Nat.add_zero,
    GatherDims.offCoord_eq_zero _ _ _ (by decide), Nat.add_zero]
  unfold GatherDims.start
  rw [dif_pos (show (0 : Fin 2) ∈ gather_S1000x1024_S16384x1_S16384x1024_1_0_n_n_0_1_11024.startIndexMap from
    List.mem_singleton.mpr rfl)]
  rw [gather_siIdx]
  rfl

/-- The operand's column the gather reads: the result's column. -/
theorem gather_operand_col (idx : IVec S16384x1 32) (y : S16384x1024.Idx) :
    (gather_S1000x1024_S16384x1_S16384x1024_1_0_n_n_0_1_11024.operandIdx y idx (1 : Fin 2)).val = (y 1).val := by
  show gather_S1000x1024_S16384x1_S16384x1024_1_0_n_n_0_1_11024.start y idx (1 : Fin 2)
      + gather_S1000x1024_S16384x1_S16384x1024_1_0_n_n_0_1_11024.batchCoord y (1 : Fin 2)
      + gather_S1000x1024_S16384x1_S16384x1024_1_0_n_n_0_1_11024.offCoord y (1 : Fin 2) = _
  rw [GatherDims.batchCoord_eq_zero _ _ _ List.not_mem_nil, Nat.add_zero]
  unfold GatherDims.start
  rw [dif_neg (by decide), Nat.zero_add]
  rfl

/-- The row gather at `(j, d)`: column `d` of the operand's row at the start index of row `j`, read signed and
    clamped into `0 … 999`. -/
theorem gather_row_apply {α : Type} (cen : S1000x1024.Idx → α) (idx : IVec S16384x1 32) (j : Fin 16384) (d : Fin 1024) :
    Host.gather gather_S1000x1024_S16384x1_S16384x1024_1_0_n_n_0_1_11024 cen idx (ix2 j d)
      = cen (ix2 (⟨min (idx (ix2 j (0 : Fin 1))).toInt.toNat 999, by omega⟩ : Fin 1000) d) := by
  unfold Host.gather
  congr 1
  funext a
  refine Fin.ext ?_
  match a with
  | ⟨0, _⟩ => exact gather_operand_row idx (ix2 j d)
  | ⟨1, _⟩ => exact gather_operand_col idx (ix2 j d)

/-- So where the start index of row `j` is a class `c` of the table, the gather reads row `c`. -/
theorem gather_row_of_mem {α : Type} (cen : S1000x1024.Idx → α) (idx : IVec S16384x1 32) (j : Fin 16384) (d : Fin 1024)
    (c : Fin 1000) (hc : (idx (ix2 j (0 : Fin 1))).toInt = (c.val : ℤ)) :
    Host.gather gather_S1000x1024_S16384x1_S16384x1024_1_0_n_n_0_1_11024 cen idx (ix2 j d) = cen (ix2 c d) := by
  rw [gather_row_apply]
  congr 2
  refine Fin.ext ?_
  show min (idx (ix2 j (0 : Fin 1))).toInt.toNat 999 = c.val
  have := c.isLt
  omega

/-! ## Words: a label whose signed reading is a class -/

/-- A 32-bit word whose signed reading is a natural number has that unsigned reading. -/
theorem toNat_of_toInt_eq (l : BitVec 32) (c : ℕ) (h : l.toInt = (c : ℤ)) : l.toNat = c := by
  have hl := l.isLt
  rw [BitVec.toInt_eq_toNat_cond] at h
  split at h <;> omega

/-- Such a word is not negative … -/
theorem slt_zero_of_toInt_eq (l : BitVec 32) (c : ℕ) (h : l.toInt = (c : ℤ)) (hc : c < 1000) :
    IntOp.cmpi .slt l 0#32 = 0#1 := by
  have hn := toNat_of_toInt_eq l c h
  refine eq_zero_of_ne_one fun h1 => ?_
  have := (StableHlo.Predicate.slt_iff_toNat (a := l) (b := 0#32) (by omega) (by decide)).mp h1
  simp at this

/-- … it is at least zero … -/
theorem sge_zero_of_toInt_eq (l : BitVec 32) (c : ℕ) (h : l.toInt = (c : ℤ)) (hc : c < 1000) :
    IntOp.cmpi .sge l 0#32 = 1#1 := by
  have hn := toNat_of_toInt_eq l c h
  exact (StableHlo.Predicate.sge_iff_toNat (a := l) (b := 0#32) (by omega) (by decide)).mpr (by simp)

/-- … and, below 1000, at most 999. -/
theorem sle_999_of_toInt_eq (l : BitVec 32) (c : ℕ) (h : l.toInt = (c : ℤ)) (hc : c < 1000) :
    IntOp.cmpi .sle l 999#32 = 1#1 := by
  have hn := toNat_of_toInt_eq l c h
  refine (StableHlo.Predicate.sle_iff_toNat (a := l) (b := 999#32) (by omega) (by decide)).mpr ?_
  show l.toNat ≤ 999
  omega

/-! ## The three pieces of `takeRows`: the shifted label, its column, the in-range mask -/

/-- The label, shifted up by 1000 where it is negative. -/
def shiftLab (lab : IVec S16384 32) : IVec S16384 32 :=
  select (cmpi .slt lab (broadcastInDim S16384 ![] bcast_S_S16384 (constantI S_ 32 0#32)))
    (addi lab (broadcastInDim S16384 ![] bcast_S_S16384 (constantI S_ 32 1000#32))) lab

/-- The shifted labels as the `[16384, 1]` column of start indices. -/
def startCol (lab : IVec S16384 32) : IVec S16384x1 32 :=
  broadcastInDim S16384x1 ![0] bcast_S16384_S16384x1_0 (shiftLab lab)

/-- The mask of the rows whose shifted label lies in `0 … 999`. -/
def inRange (lab : IVec S16384 32) : IVec S16384 1 :=
  Host.reduce IntOp.andi
    (andi (cmpi .sge (startCol lab) (broadcastInDim S16384x1 ![] bcast_S_S16384x1 (constantI S_ 32 0#32)))
      (cmpi .sle (startCol lab)
        (broadcastInDim S16384x1 ![0, 1] bcast_S1x1_S16384x1_0_1 (broadcastInDim S1x1 ![1] bcast_S1_S1x1_1 (constantI S1 32 999#32)))))
    (constantI S_ 1 1#1) reducesTo_S16384x1_S16384_d1 h_S_

variable {F : FTy → Type} [FloatOps F]

/-- `takeRows` in its three pieces. -/
theorem takeRows_eq (cen : FVec F S1000x1024 .f32) (lab : IVec S16384 32) :
    takeRows cen lab
      = select (broadcastInDim S16384x1024 ![0] bcast_S16384_S16384x1024_0 (inRange lab))
          (Host.gather gather_S1000x1024_S16384x1_S16384x1024_1_0_n_n_0_1_11024 cen (startCol lab))
          (broadcastInDim S16384x1024 ![] bcast_S_S16384x1024 (constant S_ .f32 0x7FC00000#32)) := rfl

/-- A label that is a class is not shifted. -/
theorem shiftLab_of_mem (lab : IVec S16384 32) (j : Fin 16384) (c : Fin 1000) (hc : (lab (ix1 j)).toInt = (c.val : ℤ)) :
    shiftLab lab (ix1 j) = lab (ix1 j) := by
  show Scalar.select (IntOp.cmpi .slt (lab (ix1 j)) 0#32) (IntOp.addi (lab (ix1 j)) 1000#32) (lab (ix1 j)) = _
  rw [slt_zero_of_toInt_eq _ _ hc c.isLt, select_zero]

/-- The column of start indices at row `j`. -/
theorem startCol_apply (lab : IVec S16384 32) (j : Fin 16384) (q : Fin 1) : startCol lab (ix2 j q) = shiftLab lab (ix1 j) :=
  bcast_col_apply _ _ j q

/-- The one source index over result row `j` of the reduction along the unit axis. -/
theorem lift_unit (h : S16384x1.Reduces [1] S16384) (j : Fin 16384) (k : Fin (S16384x1.size 1)) :
    h.lift (ix1 j) k = ix2 j (0 : Fin 1) := by
  funext a
  refine Fin.ext ?_
  match a with
  | ⟨0, _⟩ => rfl
  | ⟨1, _⟩ =>
    have := k.isLt
    show k.val = 0
    change k.val < 1 at this
    omega

/-- The in-range mask at row `j`: both comparisons of the shifted label, and-ed (with the initial `1` bit). -/
theorem inRange_apply (lab : IVec S16384 32) (j : Fin 16384) :
    inRange lab (ix1 j)
      = IntOp.andi (IntOp.andi (IntOp.cmpi .sge (shiftLab lab (ix1 j)) 0#32) (IntOp.cmpi .sle (shiftLab lab (ix1 j)) 999#32)) 1#1 := by
  have h : S16384x1.Reduces [1] S16384 := by decide
  unfold inRange
  refine (Host.reduce_eq_fold_single IntOp.andi _ _ reducesTo_S16384x1_S16384_d1 h h_S_ (ix1 j)).trans ?_
  have hu : (Finset.univ : Finset (Fin (S16384x1.size 1))) = ({(0 : Fin 1)} : Finset (Fin 1)) := rfl
  refine (congrArg (Finset.fold IntOp.andi _ _) hu).trans ?_
  refine Finset.fold_singleton.trans ?_
  have hs : startCol lab (h.lift (ix1 j) (0 : Fin 1)) = shiftLab lab (ix1 j) :=
    (congrArg (startCol lab) (lift_unit h j (0 : Fin 1))).trans (startCol_apply lab j 0)
  exact congrArg (fun w => IntOp.andi (IntOp.andi (IntOp.cmpi .sge w 0#32) (IntOp.cmpi .sle w 999#32)) 1#1) hs

/-- For a label that is a class the mask is set. -/
theorem inRange_of_mem (lab : IVec S16384 32) (j : Fin 16384) (c : Fin 1000) (hc : (lab (ix1 j)).toInt = (c.val : ℤ)) :
    inRange lab (ix1 j) = 1#1 := by
  rw [inRange_apply, shiftLab_of_mem lab j c hc, sge_zero_of_toInt_eq _ _ hc c.isLt, sle_999_of_toInt_eq _ _ hc c.isLt]
  decide

/-! ## The gathered center of a row whose label is a class -/

/-- For a row whose label, read signed, is a class `c` of `0 … 999`, `takeRows` reads row `c` of the centers: the label
    is not shifted, the in-range mask is set, and the clamped start index is the label. -/
theorem takeRows_of_mem (cen : FVec F S1000x1024 .f32) (lab : IVec S16384 32) (j : Fin 16384) (d : Fin 1024) (c : Fin 1000)
    (hc : (lab (ix1 j)).toInt = (c.val : ℤ)) : takeRows cen lab (ix2 j d) = cen (ix2 c d) := by
  rw [takeRows_eq, select_apply, bcast_rect_apply, inRange_of_mem lab j c hc, select_one]
  refine gather_row_of_mem cen (startCol lab) j d c ?_
  rw [startCol_apply, shiftLab_of_mem lab j c hc, hc]

/-! ## The squared distance of a row to its gathered center -/

/-- The squared distances summed over the columns. -/
def rowSq (x : FVec Ideal S16384x1024 .f32) (lab : IVec S16384 32) (cen : FVec Ideal S1000x1024 .f32) : FVec Ideal S16384 .f32 :=
  Host.reduceAdd (F := Ideal) (mulf (subf x (takeRows cen lab)) (subf x (takeRows cen lab))) (constant (F := Ideal) S_ .f32 0x00000000#32)
    reducesTo_S16384x1024_S16384_d1 h_S_

/-- The source index over result row `j` with column `k` inserted. -/
theorem lift_row (h : S16384x1024.Reduces [1] S16384) (j : Fin 16384) (k : Fin 1024) :
    h.lift (ix1 j) k = ix2 j k := by
  funext a
  refine Fin.ext ?_
  match a with
  | ⟨0, _⟩ => rfl
  | ⟨1, _⟩ => rfl

/-- Row `j`'s sum: over the columns, the square of the difference to the gathered center. -/
theorem rowSq_apply (x : FVec Ideal S16384x1024 .f32) (lab : IVec S16384 32) (cen : FVec Ideal S1000x1024 .f32) (j : Fin 16384) :
    rowSq x lab cen (ix1 j)
      = ∑ d : Fin 1024, (x (ix2 j d) - takeRows cen lab (ix2 j d)) * (x (ix2 j d) - takeRows cen lab (ix2 j d)) := by
  have h : S16384x1024.Reduces [1] S16384 := by decide
  unfold rowSq Host.reduceAdd
  refine (Ideal.hostReduceAdd_single reducesTo_S16384x1024_S16384_d1 h _ _ (ix1 j)).trans ?_
  have hz : constant (F := Ideal) S_ .f32 0x00000000#32 (Shape.Idx.first h_S_) = 0 := Ideal.ofBits_zero_f32
  rw [hz, zero_add]
  show ∑ d : Fin 1024, _ = _
  refine Finset.sum_congr rfl fun d _ => ?_
  rw [lift_row h j d]
  rfl

/-- For a row whose label is a class `c`, the gathered center is row `c`. -/
theorem rowSq_of_mem (x : FVec Ideal S16384x1024 .f32) (lab : IVec S16384 32) (cen : FVec Ideal S1000x1024 .f32) (j : Fin 16384)
    (c : Fin 1000) (hc : (lab (ix1 j)).toInt = (c.val : ℤ)) :
    rowSq x lab cen (ix1 j) = ∑ d : Fin 1024, (x (ix2 j d) - cen (ix2 c d)) * (x (ix2 j d) - cen (ix2 c d)) := by
  rw [rowSq_apply]
  refine Finset.sum_congr rfl fun d _ => ?_
  rw [takeRows_of_mem cen lab j d c hc]

/-! ## The class sums -/

/-- `classSums` as the scatter-add of the row sums by the raw labels. -/
theorem classSums_eq (x : FVec Ideal S16384x1024 .f32) (lab : IVec S16384 32) (cen : FVec Ideal S1000x1024 .f32) :
    classSums (F := Ideal) x lab cen
      = Host.scatterAdd (F := Ideal) scatter_S1000_S16384x1_S16384_n_0_0_1
          (broadcastInDim S1000 ![] bcast_S_S1000 (constant (F := Ideal) S_ .f32 0x00000000#32))
          (broadcastInDim S16384x1 ![0] bcast_S16384_S16384x1_0 lab) (rowSq x lab cen) := rfl

/-- Class `c`'s sum: over the rows labelled `c`, the squared distance to center `c`. -/
theorem classSums_apply (x : FVec Ideal S16384x1024 .f32) (lab : IVec S16384 32) (cen : FVec Ideal S1000x1024 .f32) (c : Fin 1000) :
    classSums (F := Ideal) x lab cen (ix1 c) = Cert.CenterLoss.classDist x lab cen c := by
  rw [classSums_eq]
  show (broadcastInDim S1000 ![] bcast_S_S1000 (constant (F := Ideal) S_ .f32 0x00000000#32)) (ix1 c)
      + ∑ j ∈ Finset.univ.filter (fun j : S16384.Idx => scatter_S1000_S16384x1_S16384_n_0_0_1.resultIdx? j
          (broadcastInDim S16384x1 ![0] bcast_S16384_S16384x1_0 lab) = some (ix1 c)), rowSq x lab cen j = _
  have hz : (broadcastInDim S1000 ![] bcast_S_S1000 (constant (F := Ideal) S_ .f32 0x00000000#32)) (ix1 c) = 0 :=
    Ideal.ofBits_zero_f32
  rw [hz, zero_add]
  rw [Finset.sum_filter, ← Equiv.sum_comp (idxEquiv1 (n := 16384)).symm]
  unfold Cert.CenterLoss.classDist
  refine Finset.sum_congr rfl fun j _ => ?_
  have hiff : scatter_S1000_S16384x1_S16384_n_0_0_1.resultIdx? (ix1 j)
        (broadcastInDim S16384x1 ![0] bcast_S16384_S16384x1_0 lab) = some (ix1 c)
      ↔ (lab (ix1 j)).toInt = (c.val : ℤ) := by
    refine (scatter_resultIdx?_ix1 _ j c).trans ?_
    rw [bcast_col_apply]
  show (if scatter_S1000_S16384x1_S16384_n_0_0_1.resultIdx? (ix1 j)
        (broadcastInDim S16384x1 ![0] bcast_S16384_S16384x1_0 lab) = some (ix1 c) then rowSq x lab cen (ix1 j) else 0) = _
  refine (if_congr hiff rfl rfl).trans ?_
  split
  · next hc => exact rowSq_of_mem x lab cen j c hc
  · rfl

/-! ## From the class sums to the loss -/

/-- The loss of a vector of class sums: the guarded square roots summed, over 1000. -/
theorem lossOf_apply (v : FVec Ideal S1000 .f32) (i : S_.Idx) :
    lossOf (F := Ideal) v i
      = Ideal.div (∑ c : Fin 1000, Cert.CenterLoss.classNorm (v (ix1 c))) (Ideal.ofBits .f32 0x447A0000#32) := by
  unfold lossOf Host.divf Host.reduceAdd
  refine congrArg (fun s => Ideal.div s (Ideal.ofBits .f32 0x447A0000#32)) ?_
  refine (Ideal.hostReduceAdd_total reducesTo_S1000_S_d0 (fun b => b.elim0) _ _ i).trans ?_
  have hz : constant (F := Ideal) S_ .f32 0x00000000#32 (Shape.Idx.first h_S_) = 0 := Ideal.ofBits_zero_f32
  rw [hz, zero_add, ← Equiv.sum_comp (idxEquiv1 (n := 1000)).symm]
  rfl

/-! ## The result -/

/-- The reference's result is the center loss over the thousand classes' sums of squared distances. -/
theorem result_eq (x : FVec Ideal S16384x1024 .f32) (lab : IVec S16384 32) (cen : FVec Ideal S1000x1024 .f32) :
    result (F := Ideal) x lab cen = fun _ => Cert.CenterLoss.lossDist x lab cen := by
  funext i
  unfold result
  rw [lossOf_apply]
  unfold Cert.CenterLoss.lossDist
  refine congrArg (fun s => Ideal.div s (Ideal.ofBits .f32 0x447A0000#32)) ?_
  exact Finset.sum_congr rfl fun c _ => congrArg Cert.CenterLoss.classNorm (classSums_apply x lab cen c)

end Cert.ReferenceIdeal.RefValue

end
-- ==== Proof.BlockSums.lean ====
/-
  A sum over 16384 rows taken 512 rows at a time, in any additive commutative monoid.

  `partialSum f n` is the sum of `f` over the rows below `512 · n`. It starts at `0`, each step adds the
  next block of 512 rows, and after 32 steps it is the whole sum.
-/
import Mathlib.Algebra.BigOperators.Group.Finset.Basic
import Mathlib.Algebra.BigOperators.Fin

namespace Cert.CenterLoss

/-- The sum of `f` over the rows `j < 512 · n`. -/
def partialSum {M : Type*} [AddCommMonoid M] (f : Fin 16384 → M) (n : ℕ) : M :=
  ∑ j : Fin 16384, if j.val < 512 * n then f j else 0

/-- No row lies below `0`. -/
theorem partialSum_zero {M : Type*} [AddCommMonoid M] (f : Fin 16384 → M) : partialSum f 0 = 0 := by
  unfold partialSum
  apply Finset.sum_eq_zero
  intro j _
  rw [if_neg (by omega)]

/-- The rows below `512 · (t + 1)` are the rows below `512 · t` together with the block
    `512 · t, …, 512 · t + 511`. -/
theorem partialSum_succ {M : Type*} [AddCommMonoid M] (f : Fin 16384 → M) (t : ℕ) (ht : t < 32) :
    partialSum f (t + 1) = partialSum f t + ∑ b : Fin 512, f ⟨512 * t + b.val, by have := b.isLt; omega⟩ := by
  unfold partialSum
  -- a row below `512 · (t + 1)` is either below `512 · t` or in the block
  have hsplit : ∀ j : Fin 16384, (if j.val < 512 * (t + 1) then f j else 0) =
      (if j.val < 512 * t then f j else 0)
        + (if 512 * t ≤ j.val ∧ j.val < 512 * (t + 1) then f j else 0) := by
    intro j
    by_cases h1 : j.val < 512 * t
    · have h2 : j.val < 512 * (t + 1) := by omega
      have h3 : ¬ (512 * t ≤ j.val ∧ j.val < 512 * (t + 1)) := by omega
      rw [if_pos h1, if_pos h2, if_neg h3, add_zero]
    · by_cases h2 : j.val < 512 * (t + 1)
      · have h3 : 512 * t ≤ j.val ∧ j.val < 512 * (t + 1) := by omega
        rw [if_neg h1, if_pos h2, if_pos h3, zero_add]
      · have h3 : ¬ (512 * t ≤ j.val ∧ j.val < 512 * (t + 1)) := by omega
        rw [if_neg h1, if_neg h2, if_neg h3, add_zero]
  rw [Finset.sum_congr rfl (fun j _ => hsplit j), Finset.sum_add_distrib]
  refine congrArg (fun z => (∑ j : Fin 16384, if j.val < 512 * t then f j else 0) + z) ?_
  -- the block, as a filtered sum, is the sum over its 512 offsets
  rw [← Finset.sum_filter]
  symm
  refine Finset.sum_bij
    (fun (b : Fin 512) _ => (⟨512 * t + b.val, by have := b.isLt; omega⟩ : Fin 16384)) ?_ ?_ ?_ ?_
  · intro b _
    rw [Finset.mem_filter]
    have := b.isLt
    exact ⟨Finset.mem_univ _, by show 512 * t ≤ 512 * t + b.val; omega,
      by show 512 * t + b.val < 512 * (t + 1); omega⟩
  · intro a _ b _ h
    have h' : 512 * t + a.val = 512 * t + b.val := congrArg Fin.val h
    exact Fin.ext (by omega)
  · intro j hj
    rw [Finset.mem_filter] at hj
    obtain ⟨_, hlo, hhi⟩ := hj
    refine ⟨⟨j.val - 512 * t, by omega⟩, Finset.mem_univ _, ?_⟩
    apply Fin.ext
    show 512 * t + (j.val - 512 * t) = j.val
    omega
  · intro b _
    rfl

/-- Every row lies below `512 · 32 = 16384`. -/
theorem partialSum_all {M : Type*} [AddCommMonoid M] (f : Fin 16384 → M) :
    partialSum f 32 = ∑ j : Fin 16384, f j := by
  unfold partialSum
  apply Finset.sum_congr rfl
  intro j _
  have := j.isLt
  rw [if_pos (by omega)]

end Cert.CenterLoss
-- ==== Proof.KerPieces.lean ====
/-
  What the kernel body leaves behind at a grid point, case by case, as the body's pure payloads of the point's
  input blocks and of what the point before left in the two accumulators.

  The body keeps two accumulators across the 32 points: the class-by-column sums (1024×1024) and an auxiliary
  1024×128 array whose column 0 is the per-class sum of squared row norms and column 1 the per-class count. At
  the first point both are zero-filled and then updated by the block; at every later point they are updated from
  what the point before left; at the last point the output block is computed from them and the centers.
-/
import proofs.«118221_g120259084421_cont_main3_733_3_alg».proof.Proof.Gen.KernelIdeal.Frame
import Idealize.ShloMosaic.Lib.ValueIdx
import Idealize.ShloMosaic.Lib.Pipeline.Value

set_option maxRecDepth 16384

noncomputable section

namespace Cert.KernelIdeal.KerValue

open Idealize.ShloMosaic Idealize.ShloMosaic.ValueIdx Idealize.ShloMosaic.Tactic Idealize.SL.Sem
open Cert.KernelIdeal Cert.KernelIdeal.Gen

variable {F : FTy → Type} [FloatOps F]

/-- The zero offsets of a rank-2 whole-buffer access, as the constant function. -/
theorem hz : (![0, 0] : Fin 2 → Nat) = fun _ => 0 := funext fun a => by fin_cases a <;> rfl

/-- The zero offsets of a rank-3 whole-buffer access, as the constant function. -/
theorem hz3 : (![0, 0, 0] : Fin 3 → Nat) = fun _ => 0 := funext fun a => by fin_cases a <;> rfl

/-- Column `k` of the 1024×128 auxiliary accumulator, as a 1024×1 column. -/
def colAt (k : Fin 128) (A : Vec F S1024x128 .f32) : Vec F S1024x1 .f32 := fun y => A (ix2 (y 0) k)

/-- A load through any box of what one whole-buffer store left reads the store's payload at the box's indices. -/
theorem readCov_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (B : LoadRect S) :
    v.readCov [(⟨Rect.unit off S.size inb, w⟩ : View.Piece Val S e)] B = fun j => w (B.idx j) := by
  rw [View.readCov_eq_canon', View.canon_unit_zero h]

/-- Where the one-column box at column `kn` of a 1024×128 array places its row `y`: at `(y, kn)`. -/
theorem col_idx (kn : Nat) (hk : kn < 128) (inbc : ∀ a, (![0, kn] : Fin 2 → Nat) a + S1024x1.size a ≤ S1024x128.size a)
    (y : S1024x1.Idx) :
    (Rect.unit (s := S1024x128) ![0, kn] S1024x1.size inbc).toLoadRect.idx y = ix2 (y 0) ⟨kn, hk⟩ := by
  funext a; apply Fin.ext
  match a with
  | ⟨0, _⟩ => show 0 + 1 * (y 0).val = (y 0).val; omega
  | ⟨1, _⟩ => have : (y 1).val < 1 := (y 1).isLt; show kn + 1 * (y 1).val = kn; omega

/-- A load of one column of the auxiliary accumulator after a store of the whole of it reads that column of what
    was stored. -/
theorem readCov_col {sig : RefSig} {κ : Kind} {sp : Space} (v : View sig κ sp S1024x128 .f32) (kn : Nat) (hk : kn < 128)
    (inb : ∀ a, (![0, 0] : Fin 2 → Nat) a + S1024x128.size a ≤ S1024x128.size a)
    (inbc : ∀ a, (![0, kn] : Fin 2 → Nat) a + S1024x1.size a ≤ S1024x128.size a) (w : Vec F S1024x128 .f32) :
    v.readCov [(⟨Rect.unit ![0, 0] S1024x128.size inb, w⟩ : View.Piece (Elt F) S1024x128 .f32)]
        (Rect.unit (s := S1024x128) ![0, kn] S1024x1.size inbc).toLoadRect = colAt ⟨kn, hk⟩ w := by
  rw [readCov_whole v hz]
  funext y
  exact congrArg w (col_idx kn hk inbc y)

/-- First point: the row accumulator is the block's update of the zero fill. -/
theorem rowsA (c : Dev nD) (i : grid0.Coords) (arg1 : Memref sig .tc .vmem S1x1x512 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1024x128 .f32) (harg6 : arg6.IsWhole) (hc0 : cond0_0 i) (hc1 : ¬cond0_1 i)
    (x0 : Vec F S1x1x512 .i32) (x1 : Vec F S512x1024 .f32) (x2 : Vec F S1024x1024 .f32) :
    sout0_A_0 (F := F) c i arg1 harg1 arg2 harg2 arg3 harg3 arg4 harg4 arg5 harg5 arg6 harg6 hc0 hc1 x0 x1 x2 = k0_pay6 x1 x0 k0_pay3 := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg1.read_unread, harg2.read_unread, View.ld_unit_zero (S := S512x1024) hz, View.ld_unit_zero (S := S1x1x512) hz3]

/-- First point: the auxiliary accumulator is the block's update of the zero fill. -/
theorem auxA (c : Dev nD) (i : grid0.Coords) (arg1 : Memref sig .tc .vmem S1x1x512 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1024x128 .f32) (harg6 : arg6.IsWhole) (hc0 : cond0_0 i) (hc1 : ¬cond0_1 i)
    (x0 : Vec F S1x1x512 .i32) (x1 : Vec F S512x1024 .f32) (x2 : Vec F S1024x1024 .f32) :
    sout0_A_1 (F := F) c i arg1 harg1 arg2 harg2 arg3 harg3 arg4 harg4 arg5 harg5 arg6 harg6 hc0 hc1 x0 x1 x2 = k0_pay1 (k0_pay7 x1 x0 k0_pay4) := by
  unfold sout0_A_1
  rw [View.read_writes_eq_canon _ _ _ (scover0_A_1 c i arg1 harg1 arg2 harg2 arg3 harg3 arg4 harg4 arg5 harg5 arg6 harg6 hc0 hc1 x0 x1 x2)]
  unfold kernelRun0_A
  dsimp only
  sl_unfold_words
  rw [View.canon_cons_unit_zero (S := S1024x128) hz, View.readCov_unit_zero (S := S1024x128) _ hz]
  simp only [View.readAt_eq_ld, harg1.read_unread, harg2.read_unread, View.ld_unit_zero (S := S512x1024) hz, View.ld_unit_zero (S := S1x1x512) hz3]

/-- A middle point: the row accumulator is the block's update of what the point before left. -/
theorem rowsB (c : Dev nD) (i : grid0.Coords) (arg1 : Memref sig .tc .vmem S1x1x512 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1024x128 .f32) (harg6 : arg6.IsWhole) (hc0 : ¬cond0_0 i) (hc1 : ¬cond0_1 i)
    (x0 : Vec F S1x1x512 .i32) (x1 : Vec F S512x1024 .f32) (x2 : Vec F S1024x1024 .f32) (xs0 : Vec F S1024x1024 .f32) (xs1 : Vec F S1024x128 .f32) :
    sout0_B_0 (F := F) c i arg1 harg1 arg2 harg2 arg3 harg3 arg4 harg4 arg5 harg5 arg6 harg6 hc0 hc1 x0 x1 x2 xs0 xs1 = k0_pay6 x1 x0 xs0 := by
  unfold sout0_B_0
  rw [View.read_writes_eq_canon _ _ _ (scover0_B_0 c i arg1 harg1 arg2 harg2 arg3 harg3 arg4 harg4 arg5 harg5 arg6 harg6 hc0 hc1 x0 x1 x2 xs0 xs1)]
  unfold kernelRun0_B
  dsimp only
  sl_unfold_words
  rw [View.canon_unit_zero (S := S1024x1024) hz]
  simp only [View.readAt_eq_ld, harg1.read_unread, harg2.read_unread, harg5.read_unread, View.ld_unit_zero (S := S512x1024) hz, View.ld_unit_zero (S := S1024x1024) hz, View.ld_unit_zero (S := S1x1x512) hz3]

/-- A middle point: the auxiliary accumulator is the block's update of what the point before left. -/
theorem auxB (c : Dev nD) (i : grid0.Coords) (arg1 : Memref sig .tc .vmem S1x1x512 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1024x128 .f32) (harg6 : arg6.IsWhole) (hc0 : ¬cond0_0 i) (hc1 : ¬cond0_1 i)
    (x0 : Vec F S1x1x512 .i32) (x1 : Vec F S512x1024 .f32) (x2 : Vec F S1024x1024 .f32) (xs0 : Vec F S1024x1024 .f32) (xs1 : Vec F S1024x128 .f32) :
    sout0_B_1 (F := F) c i arg1 harg1 arg2 harg2 arg3 harg3 arg4 harg4 arg5 harg5 arg6 harg6 hc0 hc1 x0 x1 x2 xs0 xs1 = k0_pay1 (k0_pay7 x1 x0 xs1) := by
  unfold sout0_B_1
  rw [View.read_writes_eq_canon _ _ _ (scover0_B_1 c i arg1 harg1 arg2 harg2 arg3 harg3 arg4 harg4 arg5 harg5 arg6 harg6 hc0 hc1 x0 x1 x2 xs0 xs1)]
  unfold kernelRun0_B
  dsimp only
  sl_unfold_words
  rw [View.canon_unit_zero (S := S1024x128) hz]
  simp only [View.readAt_eq_ld, harg1.read_unread, harg2.read_unread, harg6.read_unread, View.ld_unit_zero (S := S512x1024) hz, View.ld_unit_zero (S := S1024x128) hz, View.ld_unit_zero (S := S1x1x512) hz3]

/-- The last point: the row accumulator, as at a middle point. -/
theorem rowsC (c : Dev nD) (i : grid0.Coords) (arg1 : Memref sig .tc .vmem S1x1x512 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1024x128 .f32) (harg6 : arg6.IsWhole) (hc0 : ¬cond0_0 i) (hc1 : cond0_1 i)
    (x0 : Vec F S1x1x512 .i32) (x1 : Vec F S512x1024 .f32) (x2 : Vec F S1024x1024 .f32) (xs0 : Vec F S1024x1024 .f32) (xs1 : Vec F S1024x128 .f32) :
    sout0_C_0 (F := F) c i arg1 harg1 arg2 harg2 arg3 harg3 arg4 harg4 arg5 harg5 arg6 harg6 hc0 hc1 x0 x1 x2 xs0 xs1 = k0_pay6 x1 x0 xs0 := by
  unfold sout0_C_0
  rw [View.read_writes_eq_canon _ _ _ (scover0_C_0 c i arg1 harg1 arg2 harg2 arg3 harg3 arg4 harg4 arg5 harg5 arg6 harg6 hc0 hc1 x0 x1 x2 xs0 xs1)]
  unfold kernelRun0_C
  dsimp only
  sl_unfold_words
  rw [View.canon_unit_zero (S := S1024x1024) hz]
  simp only [View.readAt_eq_ld, harg1.read_unread, harg2.read_unread, harg5.read_unread, View.ld_unit_zero (S := S512x1024) hz, View.ld_unit_zero (S := S1024x1024) hz, View.ld_unit_zero (S := S1x1x512) hz3]

/-- The last point: the auxiliary accumulator, as at a middle point. -/
theorem auxC (c : Dev nD) (i : grid0.Coords) (arg1 : Memref sig .tc .vmem S1x1x512 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1024x128 .f32) (harg6 : arg6.IsWhole) (hc0 : ¬cond0_0 i) (hc1 : cond0_1 i)
    (x0 : Vec F S1x1x512 .i32) (x1 : Vec F S512x1024 .f32) (x2 : Vec F S1024x1024 .f32) (xs0 : Vec F S1024x1024 .f32) (xs1 : Vec F S1024x128 .f32) :
    sout0_C_1 (F := F) c i arg1 harg1 arg2 harg2 arg3 harg3 arg4 harg4 arg5 harg5 arg6 harg6 hc0 hc1 x0 x1 x2 xs0 xs1 = k0_pay1 (k0_pay7 x1 x0 xs1) := by
  unfold sout0_C_1
  rw [View.read_writes_eq_canon _ _ _ (scover0_C_1 c i arg1 harg1 arg2 harg2 arg3 harg3 arg4 harg4 arg5 harg5 arg6 harg6 hc0 hc1 x0 x1 x2 xs0 xs1)]
  unfold kernelRun0_C
  dsimp only
  sl_unfold_words
  rw [View.canon_unit_zero (S := S1024x128) hz]
  simp only [View.readAt_eq_ld, harg1.read_unread, harg2.read_unread, harg6.read_unread, View.ld_unit_zero (S := S512x1024) hz, View.ld_unit_zero (S := S1024x128) hz, View.ld_unit_zero (S := S1x1x512) hz3]

/-- The last point: the output block is the epilogue of the centers block, the updated row accumulator, and
    columns 0 and 1 of the updated auxiliary accumulator. -/
theorem outC (c : Dev nD) (i : grid0.Coords) (arg1 : Memref sig .tc .vmem S1x1x512 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1 .f32) (harg4 : arg4.IsWhole) (arg5 : Memref sig .tc .vmem S1024x1024 .f32) (harg5 : arg5.IsWhole) (arg6 : Memref sig .tc .vmem S1024x128 .f32) (harg6 : arg6.IsWhole) (hc0 : ¬cond0_0 i) (hc1 : cond0_1 i)
    (x0 : Vec F S1x1x512 .i32) (x1 : Vec F S512x1024 .f32) (x2 : Vec F S1024x1024 .f32) (xs0 : Vec F S1024x1024 .f32) (xs1 : Vec F S1024x128 .f32) :
    out0_C_3 (F := F) c i arg1 harg1 arg2 harg2 arg3 harg3 arg4 harg4 arg5 harg5 arg6 harg6 hc0 hc1 x0 x1 x2 xs0 xs1
      = k0_pay2 x2 (k0_pay6 x1 x0 xs0) (colAt 0 (k0_pay1 (k0_pay7 x1 x0 xs1))) (colAt 1 (k0_pay1 (k0_pay7 x1 x0 xs1))) := by
  unfold out0_C_3
  rw [View.read_writes_eq_canon _ _ _ (cover0_C_3 c i arg1 harg1 arg2 harg2 arg3 harg3 arg4 harg4 arg5 harg5 arg6 harg6 hc0 hc1 x0 x1 x2 xs0 xs1)]
  unfold kernelRun0_C
  dsimp only
  sl_unfold_words
  rw [View.canon_unit_zero (S := S1x1) hz]
  refine congr (congr (congr (congrArg _ ?_) ?_) ?_) ?_
  · simp only [View.readAt_eq_ld, harg3.read_unread, View.ld_unit_zero (S := S1024x1024) hz]
  · rw [View.readCov_unit_zero (S := S1024x1024) _ hz]
    simp only [View.readAt_eq_ld, harg1.read_unread, harg2.read_unread, harg5.read_unread, View.ld_unit_zero (S := S512x1024) hz, View.ld_unit_zero (S := S1024x1024) hz, View.ld_unit_zero (S := S1x1x512) hz3]
  · refine (readCov_col (F := F) arg6.view 0 (by decide) _ _ _).trans ?_
    simp only [View.readAt_eq_ld, harg1.read_unread, harg2.read_unread, harg6.read_unread, View.ld_unit_zero (S := S512x1024) hz, View.ld_unit_zero (S := S1024x128) hz, View.ld_unit_zero (S := S1x1x512) hz3]
    rfl
  · refine (readCov_col (F := F) arg6.view 1 (by decide) _ _ _).trans ?_
    simp only [View.readAt_eq_ld, harg1.read_unread, harg2.read_unread, harg6.read_unread, View.ld_unit_zero (S := S512x1024) hz, View.ld_unit_zero (S := S1024x128) hz, View.ld_unit_zero (S := S1x1x512) hz3]
    rfl

end Cert.KernelIdeal.KerValue

end
-- ==== Proof.KerBlocks.lean ====
/-
  The input blocks the kernel sees at a grid point, read off the three argument arrays: the labels are reshaped
  row-major to 32×1×512 and point `t` sees row `t`; `x` is cut into 32 blocks of 512 rows; the centers are padded
  with 24 zero rows to 1024×1024 and every point sees the whole padded array.
-/
import proofs.«118221_g120259084421_cont_main3_733_3_alg».proof.Proof.Gen.KernelIdeal.Frame
import proofs.«118221_g120259084421_cont_main3_733_3_alg».proof.Proof.LossSpec
import Idealize.ShloMosaic.Lib.ValueIdx
import Idealize.ShloMosaic.Lib.Pipeline.Value
import Idealize.ShloMosaic.Lib.KernelVsHost

set_option maxRecDepth 16384

noncomputable section

namespace Cert.KernelIdeal.KerValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The label block of point `t`: 512 consecutive labels. -/
abbrev labBlk (c : Dev nD) (t : Fin cfg0.N) : Vec Ideal S1x1x512 .i32 := iblk (F := Ideal) m c 0 t
/-- The row block of point `t`: 512 consecutive rows of `x`. -/
abbrev xBlk (c : Dev nD) (t : Fin cfg0.N) : Vec Ideal S512x1024 .f32 := iblk (F := Ideal) m c 1 t
/-- The centers block: the whole padded centers array, at every point. -/
abbrev cenBlk (c : Dev nD) (t : Fin cfg0.N) : Vec Ideal S1024x1024 .f32 := iblk (F := Ideal) m c 2 t

/-- The three argument arrays as the run starts. -/
abbrev xArg (c : Dev nD) : FVec Ideal S16384x1024 .f32 := m ((c.tc : Thread nD τ).loc main_arg0)
abbrev labArg (c : Dev nD) : IVec S16384 32 := m ((c.tc : Thread nD τ).loc main_arg1)
abbrev cenArg (c : Dev nD) : FVec Ideal S1000x1024 .f32 := m ((c.tc : Thread nD τ).loc main_arg2)

/-- The block index of each input window at every grid point: the labels' and the rows' first index is the point,
    every other index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The labels as the region finds them: the label argument reshaped to 32×1×512. -/
theorem labArr_eq (c : Dev nD) :
    (V m c main_v0 : S32x1x512.Idx → BitVec 32) = shapeCast S32x1x512 (labArg m c) shapeCasts_S16384_S32x1x512 := by
  dsimp only [Gen.V, Gen.V0]
  simp only [Gen.hostOps0, Gen.hostOps0_1, List.flatten_cons, List.flatten_nil, List.append_nil, List.cons_append, List.nil_append]
  after_results
  rfl

/-- The centers as the region finds them: the centers argument padded with the converted zero word. -/
theorem cenArr_eq (c : Dev nD) :
    (V m c main_v1 : S1024x1024.Idx → EReal)
      = pad S1024x1024 ![0, 0] ![24, 0] ![0, 0] (cenArg m c) (sitofp (F := Ideal) .f32 (constantI S_ 32 0#32)) pads_S1000x1024_S1024x1024_0240_000 h_S_ := by
  dsimp only [Gen.V, Gen.V0]
  simp only [Gen.hostOps0, Gen.hostOps0_1, List.flatten_cons, List.flatten_nil, List.append_nil, List.cons_append, List.nil_append]
  after_results
  rfl

/-- Entry `(0, 0, b)` of the label block of point `t` is entry `(t, 0, b)` of the reshaped labels. -/
theorem labBlk_read (c : Dev nD) (t : Fin cfg0.N) (b : Fin 512) (t' : Fin 32) (ht : t'.val = t.val) :
    labBlk m c t (ix3 (0 : Fin 1) (0 : Fin 1) b) = (V m c main_v0 : S32x1x512.Idx → BitVec 32) (ix3 t' (0 : Fin 1) b) := by
  obtain ⟨h0, h1, h2, -⟩ := idx_facts t
  show iblk (F := Ideal) m c 0 t (ix3 (0 : Fin 1) (0 : Fin 1) b) = _
  unfold iblk
  rw [View.read_apply]
  show V m c main_v0 _ = V m c main_v0 _
  congr 1
  funext a
  apply Fin.ext
  match a with
  | ⟨0, _⟩ => show win0_0.index t (0 : Fin 3) * 1 + 1 * 0 = t'.val; rw [h0]; omega
  | ⟨1, _⟩ => show win0_0.index t (1 : Fin 3) * 1 + 1 * 0 = 0; rw [h1]
  | ⟨2, _⟩ => show win0_0.index t (2 : Fin 3) * 512 + 1 * b.val = b.val; rw [h2]; omega

/-- Label `b` of block `t` is label `512 t + b` (the reshape to 32×1×512 is row-major). -/
theorem labBlk_apply (c : Dev nD) (t : Fin cfg0.N) (b : Fin 512) (j : Fin 16384) (hj : j.val = 512 * t.val + b.val) :
    labBlk m c t (ix3 (0 : Fin 1) (0 : Fin 1) b) = labArg m c (ix1 j) := by
  have hN : cfg0.N = 32 := N_0
  have ht : t.val < 32 := by have := t.isLt; omega
  rw [labBlk_read m c t b ⟨t.val, ht⟩ rfl, labArr_eq]
  refine shapeCast_apply _ _ _ (ix1 j) ?_
  rw [Shape.rowMajor_val_one, Shape.rowMajor_val_three]
  show j.val = (t.val * 1 + 0) * 512 + b.val
  omega

/-- Row `b` of block `t` is row `512 t + b` of `x`. -/
theorem xBlk_apply (c : Dev nD) (t : Fin cfg0.N) (b : Fin 512) (d : Fin 1024) (j : Fin 16384) (hj : j.val = 512 * t.val + b.val) :
    xBlk m c t (ix2 b d) = xArg m c (ix2 j d) := by
  obtain ⟨-, -, -, h0, h1, -⟩ := idx_facts t
  show iblk (F := Ideal) m c 1 t (ix2 b d) = _
  unfold iblk
  rw [View.read_apply]
  show V m c main_arg0 _ = m ((c.tc : Thread nD τ).loc main_arg0) _
  rw [V_main_arg0]
  congr 1
  funext a
  apply Fin.ext
  match a with
  | ⟨0, _⟩ => show win0_1.index t (0 : Fin 2) * 512 + 1 * b.val = j.val; rw [h0, hj]; omega
  | ⟨1, _⟩ => show win0_1.index t (1 : Fin 2) * 1024 + 1 * d.val = d.val; rw [h1]; omega

/-- Entry `(cl, d)` of the centers block is entry `(cl, d)` of the padded centers, at every point. -/
theorem cenBlk_read (c : Dev nD) (t : Fin cfg0.N) (cl d : Fin 1024) :
    cenBlk m c t (ix2 cl d) = (V m c main_v1 : S1024x1024.Idx → EReal) (ix2 cl d) := by
  obtain ⟨-, -, -, -, -, h0, h1⟩ := idx_facts t
  show iblk (F := Ideal) m c 2 t (ix2 cl d) = _
  unfold iblk
  rw [View.read_apply]
  show V m c main_v1 _ = V m c main_v1 _
  congr 1
  funext a
  apply Fin.ext
  match a with
  | ⟨0, _⟩ => show win0_2.index t (0 : Fin 2) * 1024 + 1 * cl.val = cl.val; rw [h0]; omega
  | ⟨1, _⟩ => show win0_2.index t (1 : Fin 2) * 1024 + 1 * d.val = d.val; rw [h1]; omega

/-- The pad value: the zero word converted to a float is `0`. -/
theorem padVal_eq (i : S_.Idx) : (sitofp (F := Ideal) .f32 (constantI S_ 32 0#32) : FVec Ideal S_ .f32) i = 0 := by
  show (((0#32 : BitVec 32).toInt : ℝ) : EReal) = 0
  rw [show (0#32 : BitVec 32).toInt = 0 from by decide, Int.cast_zero, EReal.coe_zero]

/-- The centers block is the centers with 24 zero rows appended, at every point. -/
theorem cenBlk_apply (c : Dev nD) (t : Fin cfg0.N) (cl d : Fin 1024) :
    cenBlk m c t (ix2 cl d) = Cert.CenterLoss.cenPad (cenArg m c) cl d := by
  rw [cenBlk_read, cenArr_eq]
  unfold Cert.CenterLoss.cenPad
  by_cases h : cl.val < 1000
  · rw [dif_pos h]
    refine pad_apply_of_inside _ _ _ _ _ _ _ _ (ix2 (⟨cl.val, h⟩ : Fin 1000) d) (fun a => ?_)
    match a with
    | ⟨0, _⟩ => show cl.val = 0 + cl.val * (0 + 1); omega
    | ⟨1, _⟩ => show d.val = 0 + d.val * (0 + 1); omega
  · rw [dif_neg h]
    refine (pad_apply_of_not_inside _ _ _ _ _ _ _ _ (0 : Fin 2) (fun hin => ?_)).trans (padVal_eq _)
    have h3 : (cl.val - 0) / (0 + 1) < 1000 := hin.2.2
    omega

end Cert.KernelIdeal.KerValue

end
-- ==== Proof.KerPayload.lean ====
/-
  The kernel body's payloads read at an index, at the ideal instance.

  One grid step holds a block `xb` of 512 rows of 1024 columns and the rows' labels `lb`. The one-hot matrix
  `oh[c, b]` is `1` where the word of class `c` is the label of row `b` and `0` elsewhere; the step adds `oh · xb`
  to the 1024 × 1024 accumulator of row sums, and `oh · aux` to the 1024 × 128 accumulator whose lane 0 collects
  the rows' squared norms and whose lane 1 counts the rows (`aux[b, 0] = ∑_d xb[b, d]²`, `aux[b, 1] =` the word of
  `1.0`). The last step reads the two accumulators and the centers and forms, per class, the expanded square
  `t − 2 · ∑_d s_d · cen_d + n · ∑_d cen_d²`, its guarded square root, the sum of those over the 1024 classes, and
  the quotient by the word of `1000.0`.
-/
import proofs.«118221_g120259084421_cont_main3_733_3_alg».proof.Proof.Gen.KernelIdeal
import proofs.«118221_g120259084421_cont_main3_733_3_alg».proof.Proof.Gen.KernelIdeal.Skeleton
import proofs.«118221_g120259084421_cont_main3_733_3_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerValue

open Idealize.ShloMosaic Idealize.ShloMosaic.ValueIdx Cert.KernelIdeal Cert.KernelIdeal.Gen

/-! ## The zero fills -/

theorem zeroRows_apply (i : S1024x1024.Idx) : k0_pay3 (F := Ideal) i = 0 := by
  unfold k0_pay3
  rw [shapeCast_self]
  exact Ideal.ofBits_zero_f32

theorem zeroAux_apply (i : S1024x128.Idx) : k0_pay4 (F := Ideal) i = 0 := by
  unfold k0_pay4
  rw [shapeCast_self]
  exact Ideal.ofBits_zero_f32

/-! ## The one-hot matrix -/

/-- A class number below 1024, as a 32-bit word, is a label exactly when the label read signed is that number. -/
theorem ofNat_eq_iff_toInt (c : ℕ) (hc : c < 1024) (l : BitVec 32) : BitVec.ofNat 32 c = l ↔ l.toInt = (c : ℤ) := by
  constructor
  · rintro rfl
    rw [BitVec.toInt_eq_toNat_cond, BitVec.toNat_ofNat]
    omega
  · intro h
    apply BitVec.eq_of_toInt_eq
    rw [h, BitVec.toInt_eq_toNat_cond, BitVec.toNat_ofNat]
    omega

/-- The comparison's bit, widened and converted: `1` where the class's word is the label, `0` elsewhere. -/
theorem onehot_word (c : ℕ) (hc : c < 1024) (l : BitVec 32) :
    ((((IntOp.cmpi .eq (BitVec.ofNat 32 c) l).setWidth 32).toInt : ℝ) : EReal) = if l.toInt = (c : ℤ) then 1 else 0 := by
  by_cases h : BitVec.ofNat 32 c = l
  · rw [if_pos ((ofNat_eq_iff_toInt c hc l).mp h)]
    subst h
    simp [IntOp.cmpi]
  · rw [if_neg (fun h' => h ((ofNat_eq_iff_toInt c hc l).mpr h'))]
    have hb : (BitVec.ofNat 32 c == l) = false := by simpa using h
    simp [IntOp.cmpi, hb]

/-- The one-hot matrix at class `c`, row `b`: `1` where the label of row `b` is `c`, `0` elsewhere. -/
theorem onehot_apply (lb : Vec Ideal S1x1x512 .i32) (c : Fin 1024) (b : Fin 512) :
    k0_pay5 (F := Ideal) lb (ix2 c b) = if (lb (ix3 (0 : Fin 1) (0 : Fin 1) b)).toInt = (c.val : ℤ) then 1 else 0 := by
  unfold k0_pay5
  rw [sitofp_apply, extui_apply]
  show ((((IntOp.cmpi .eq (iota .tc S1024x512 32 [0] iota_S1024x512_d0_w32 (ix2 c b))
      (broadcastTo S1024x512 (shapeCast S1x512 lb shapeCasts_S1x1x512_S1x512) broadcasts_S1x512_S1024x512 (ix2 c b))).setWidth 32).toInt : ℝ) : EReal) = _
  rw [iota_single_apply, broadcastTo_1b_ab_apply, shapeCast_1ab_ab_apply]
  exact onehot_word c.val c.isLt _

/-! ## The two products with the one-hot matrix -/

/-- The four coordinates of the row-sum product's operand indices: the one-hot matrix is read at (output row, contraction
    position), the block at (contraction position, output column). -/
theorem lhs_rows_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs_rows_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_rows_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_rows_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product into the row-sum accumulator at `(c, d)`: the sum over the block's rows. -/
theorem matmul_rows_apply (L : FVec Ideal S1024x512 .f32) (R : FVec Ideal S512x1024 .f32) (c d : Fin 1024) :
    matmul dot_S1024x512_S512x1024_S1024x1024_1_0_0_1_n_n none L R (constant (F := Ideal) S1024x1024 .f32 0x00000000#32) (ix2 c d)
      = ∑ b : Fin 512, L (ix2 c b) * R (ix2 b d) := by
  simp only [matmul]
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 c d)
      ((contrEquiv1 dot_S1024x512_S512x1024_S1024x1024_1_0_0_1_n_n 512 rfl rfl).symm k) = ix2 c k :=
    funext fun a => Fin.ext (by
      match a with
      | ⟨0, _⟩ => exact lhs_rows_0 _ _
      | ⟨1, _⟩ => exact (lhs_rows_1 _ _).trans hk)
  have er : dot_S1024x512_S512x1024_S1024x1024_1_0_0_1_n_n.rhsIdx (ix2 c d)
      ((contrEquiv1 dot_S1024x512_S512x1024_S1024x1024_1_0_0_1_n_n 512 rfl rfl).symm k) = ix2 k d :=
    funext fun a => Fin.ext (by
      match a with
      | ⟨0, _⟩ => exact (rhs_rows_0 _ _).trans hk
      | ⟨1, _⟩ => exact rhs_rows_1 _ _)
  rw [el, er]

/-- A one-hot factor selects its cofactor or nothing. -/
theorem onehot_mul (p : Prop) [Decidable p] (y : EReal) : (if p then (1 : EReal) else 0) * y = if p then y else 0 := by
  split
  · exact one_mul y
  · exact zero_mul y

theorem rowAcc_apply (xb : Vec Ideal S512x1024 .f32) (lb : Vec Ideal S1x1x512 .i32) (prev : Vec Ideal S1024x1024 .f32) (c d : Fin 1024) :
    k0_pay6 (F := Ideal) xb lb prev (ix2 c d)
      = prev (ix2 c d) + ∑ b : Fin 512, if (lb (ix3 (0 : Fin 1) (0 : Fin 1) b)).toInt = (c.val : ℤ) then xb (ix2 b d) else 0 := by
  unfold k0_pay6
  rw [shapeCast_self, addf_apply, matmul_rows_apply]
  refine congrArg (prev (ix2 c d) + ·) (Finset.sum_congr rfl fun b _ => ?_)
  rw [onehot_apply, onehot_mul]

/-- The same four coordinates for the product into the auxiliary accumulator. -/
theorem lhs_aux_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl
theorem lhs_aux_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem rhs_aux_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem rhs_aux_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- The product into the auxiliary accumulator at `(c, j)`: the sum over the block's rows. -/
theorem matmul_aux_apply (L : FVec Ideal S1024x512 .f32) (R : FVec Ideal S512x128 .f32) (c : Fin 1024) (j : Fin 128) :
    matmul dot_S1024x512_S512x128_S1024x128_1_0_0_1_n_n none L R (constant (F := Ideal) S1024x128 .f32 0x00000000#32) (ix2 c j)
      = ∑ b : Fin 512, L (ix2 c b) * R (ix2 b j) := by
  simp only [matmul]
  rw [Ideal.matmul_constant_zero_apply,
    ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 c j)
      ((contrEquiv1 dot_S1024x512_S512x128_S1024x128_1_0_0_1_n_n 512 rfl rfl).symm k) = ix2 c k :=
    funext fun a => Fin.ext (by
      match a with
      | ⟨0, _⟩ => exact lhs_aux_0 _ _
      | ⟨1, _⟩ => exact (lhs_aux_1 _ _).trans hk)
  have er : dot_S1024x512_S512x128_S1024x128_1_0_0_1_n_n.rhsIdx (ix2 c j)
      ((contrEquiv1 dot_S1024x512_S512x128_S1024x128_1_0_0_1_n_n 512 rfl rfl).symm k) = ix2 k j :=
    funext fun a => Fin.ext (by
      match a with
      | ⟨0, _⟩ => exact (rhs_aux_0 _ _).trans hk
      | ⟨1, _⟩ => exact rhs_aux_1 _ _)
  rw [el, er]

/-- A lane sum of a 512 × 1024 block at row `b`: the sum over the row's 1024 entries. -/
theorem laneSum512_apply (x : FVec Ideal S512x1024 .f32) (b : Fin 512) :
    multiReduction .add [1] S512 x 0x00000000#32 reduces_S512x1024_S512 (.inl rfl) rfl (ix1 b) = ∑ d : Fin 1024, x (ix2 b d) := by
  refine (Ideal.multiReduction_add_single x 0x00000000#32 reduces_S512x1024_S512 (.inl rfl) rfl (ix1 b)).trans ?_
  refine Finset.sum_congr rfl fun d _ => congrArg x (funext fun a => Fin.ext ?_)
  match a with
  | ⟨0, _⟩ => rfl
  | ⟨1, _⟩ => rfl

/-- A 512-vector viewed as a column reads, at `(b, u)`, the vector at `b`: both positions are `b` in row-major order. -/
theorem col512_apply {α : Type} (x : S512.Idx → α) (b : Fin 512) (u : Fin 1) :
    shapeCast S512x1 x shapeCasts_S512_S512x1 (ix2 b u) = x (ix1 b) :=
  shapeCast_apply x shapeCasts_S512_S512x1 _ _ (by
    have hu : u.val = 0 := by omega
    rw [Shape.rowMajor_val_two, Shape.rowMajor_val_one]
    show b.val = b.val * 1 + u.val
    omega)

/-- A 512 × 1 column spread over 128 lanes reads, at `(b, j)`, the column at `b`. -/
theorem spread512_apply {α : Type} (v : S512x1.Idx → α) (b : Fin 512) (j : Fin 128) :
    broadcastTo S512x128 v broadcasts_S512x1_S512x128 (ix2 b j) = v (ix2 b (0 : Fin 1)) := by
  refine broadcastTo_apply v broadcasts_S512x1_S512x128 (ix2 b j) (ix2 b (0 : Fin 1)) fun ax => ?_
  match ax with
  | ⟨0, _⟩ => rfl
  | ⟨1, _⟩ => rfl

/-- Lane 0 of the auxiliary accumulator's new value: the previous one plus the squared norms of the rows of class `c`. -/
theorem aux_lane0 (xb : Vec Ideal S512x1024 .f32) (lb : Vec Ideal S1x1x512 .i32) (prev : Vec Ideal S1024x128 .f32) (c : Fin 1024) :
    k0_pay7 (F := Ideal) xb lb prev (ix2 c (0 : Fin 128))
      = prev (ix2 c (0 : Fin 128)) + ∑ b : Fin 512, if (lb (ix3 (0 : Fin 1) (0 : Fin 1) b)).toInt = (c.val : ℤ) then ∑ d : Fin 1024, xb (ix2 b d) * xb (ix2 b d) else 0 := by
  unfold k0_pay7
  rw [addf_apply, matmul_aux_apply]
  refine congrArg (prev (ix2 c (0 : Fin 128)) + ·) (Finset.sum_congr rfl fun b _ => ?_)
  rw [onehot_apply, onehot_mul]
  refine if_congr Iff.rfl ?_ rfl
  rw [select_apply]
  show Scalar.select (IntOp.cmpi .eq (iota .tc S512x128 32 [1] iota_S512x128_d1_w32 (ix2 b (0 : Fin 128))) 0#32) _ _ = _
  rw [iota_single_apply]
  show Scalar.select 1#1 _ _ = _
  rw [select_one, spread512_apply, shapeCast_self, col512_apply, laneSum512_apply]
  rfl

/-- Lane 1 of the auxiliary accumulator's new value: the previous one plus the word of `1.0` once per row of class `c`. -/
theorem aux_lane1 (xb : Vec Ideal S512x1024 .f32) (lb : Vec Ideal S1x1x512 .i32) (prev : Vec Ideal S1024x128 .f32) (c : Fin 1024) :
    k0_pay7 (F := Ideal) xb lb prev (ix2 c (1 : Fin 128))
      = prev (ix2 c (1 : Fin 128)) + ∑ b : Fin 512, if (lb (ix3 (0 : Fin 1) (0 : Fin 1) b)).toInt = (c.val : ℤ) then Ideal.ofBits .f32 0x3F800000#32 else 0 := by
  unfold k0_pay7
  rw [addf_apply, matmul_aux_apply]
  refine congrArg (prev (ix2 c (1 : Fin 128)) + ·) (Finset.sum_congr rfl fun b _ => ?_)
  rw [onehot_apply, onehot_mul]
  refine if_congr Iff.rfl ?_ rfl
  rw [select_apply]
  show Scalar.select (IntOp.cmpi .eq (iota .tc S512x128 32 [1] iota_S512x128_d1_w32 (ix2 b (1 : Fin 128))) 0#32) _ _ = _
  rw [iota_single_apply]
  show Scalar.select 0#1 _ _ = _
  rw [select_zero, select_apply]
  show Scalar.select (IntOp.cmpi .eq (iota .tc S512x128 32 [1] iota_S512x128_d1_w32 (ix2 b (1 : Fin 128))) 1#32) _ _ = _
  rw [iota_single_apply]
  show Scalar.select 1#1 _ _ = _
  rw [select_one]
  rfl

theorem auxAcc_sq_apply (xb : Vec Ideal S512x1024 .f32) (lb : Vec Ideal S1x1x512 .i32) (prev : Vec Ideal S1024x128 .f32) (c : Fin 1024) :
    k0_pay1 (F := Ideal) (k0_pay7 xb lb prev) (ix2 c (0 : Fin 128))
      = prev (ix2 c (0 : Fin 128)) + ∑ b : Fin 512, if (lb (ix3 (0 : Fin 1) (0 : Fin 1) b)).toInt = (c.val : ℤ) then ∑ d : Fin 1024, xb (ix2 b d) * xb (ix2 b d) else 0 := by
  unfold k0_pay1
  rw [shapeCast_self]
  exact aux_lane0 xb lb prev c

theorem auxAcc_count_apply (xb : Vec Ideal S512x1024 .f32) (lb : Vec Ideal S1x1x512 .i32) (prev : Vec Ideal S1024x128 .f32) (c : Fin 1024) :
    k0_pay1 (F := Ideal) (k0_pay7 xb lb prev) (ix2 c (1 : Fin 128))
      = prev (ix2 c (1 : Fin 128)) + ∑ b : Fin 512, if (lb (ix3 (0 : Fin 1) (0 : Fin 1) b)).toInt = (c.val : ℤ) then Ideal.ofBits .f32 0x3F800000#32 else 0 := by
  unfold k0_pay1
  rw [shapeCast_self]
  exact aux_lane1 xb lb prev c

/-! ## The epilogue -/

/-- A lane sum of a 1024 × 1024 array at row `c`: the sum over the row's 1024 entries. -/
theorem laneSum1024_apply (x : FVec Ideal S1024x1024 .f32) (c : Fin 1024) :
    multiReduction .add [1] S1024 x 0x00000000#32 reduces_S1024x1024_S1024 (.inl rfl) rfl (ix1 c) = ∑ d : Fin 1024, x (ix2 c d) := by
  refine (Ideal.multiReduction_add_single x 0x00000000#32 reduces_S1024x1024_S1024 (.inl rfl) rfl (ix1 c)).trans ?_
  refine Finset.sum_congr rfl fun d _ => congrArg x (funext fun a => Fin.ext ?_)
  match a with
  | ⟨0, _⟩ => rfl
  | ⟨1, _⟩ => rfl

/-- A 1024-vector viewed as a column reads, at `(c, u)`, the vector at `c`: both positions are `c` in row-major order. -/
theorem col1024_apply {α : Type} (x : S1024.Idx → α) (c : Fin 1024) (u : Fin 1) :
    shapeCast S1024x1 x shapeCasts_S1024_S1024x1 (ix2 c u) = x (ix1 c) :=
  shapeCast_apply x shapeCasts_S1024_S1024x1 _ _ (by
    have hu : u.val = 0 := by omega
    rw [Shape.rowMajor_val_two, Shape.rowMajor_val_one]
    show c.val = c.val * 1 + u.val
    omega)

/-- The indices of the 1 × 1024 × 1 array are the 1024 classes. -/
def idx1x1024x1Equiv : Fin 1024 ≃ S1x1024x1.Idx where
  toFun c := ix3 (0 : Fin 1) c (0 : Fin 1)
  invFun i := i 1
  left_inv _ := rfl
  right_inv i := by
    funext a
    match a with
    | ⟨0, _⟩ =>
      have h0 : (i 0).val < 1 := (i 0).isLt
      exact Fin.ext (by show (0 : ℕ) = (i 0).val; omega)
    | ⟨1, _⟩ => rfl
    | ⟨2, _⟩ =>
      have h2 : (i 2).val < 1 := (i 2).isLt
      exact Fin.ext (by show (0 : ℕ) = (i 2).val; omega)

/-- The sum of a 1024 × 1 column over everything, taken through the 1 × 1024 × 1 view: the sum over the classes. -/
theorem classSum_apply (v : FVec Ideal S1024x1 .f32) (j : S1.Idx) :
    multiReduction .add [1, 2] S1 (shapeCast S1x1024x1 v shapeCasts_S1024x1_S1x1024x1) 0x00000000#32 reduces_S1x1024x1_S1 (.inl rfl) rfl j
      = ∑ c : Fin 1024, v (ix2 c (0 : Fin 1)) := by
  refine (Ideal.multiReduction_add_total _ 0x00000000#32 reduces_S1x1024x1_S1
    (fun b => by match b with | ⟨0, _⟩ => rfl) (.inl rfl) rfl j).trans ?_
  rw [← Equiv.sum_comp idx1x1024x1Equiv]
  refine Finset.sum_congr rfl fun c _ => ?_
  exact shapeCast_ab_1ab_apply v shapeCasts_S1024x1_S1x1024x1 0 c 0

/-- A shape cast reads the operand somewhere. -/
theorem shapeCast_at {s t : Shape} {α : Type} (x : s.Idx → α) (h : s.ShapeCasts t) (j : t.Idx) :
    shapeCast t x h j = x (Shape.reshapeEquiv h j) := rfl

theorem epilogue_apply (cenb s : Vec Ideal S1024x1024 .f32) (a0 a1 : Vec Ideal S1024x1 .f32) (i : S1x1.Idx) :
    k0_pay2 (F := Ideal) cenb s a0 a1 i
      = Ideal.div (∑ c : Fin 1024, Cert.CenterLoss.classNorm
          ((a0 (ix2 c (0 : Fin 1)) - Ideal.ofBits .f32 0x40000000#32 * ∑ d : Fin 1024, s (ix2 c d) * cenb (ix2 c d))
            + a1 (ix2 c (0 : Fin 1)) * ∑ d : Fin 1024, cenb (ix2 c d) * cenb (ix2 c d)))
        (Ideal.ofBits .f32 0x447A0000#32) := by
  unfold k0_pay2
  rw [divf_apply, broadcast_apply, broadcast_apply]
  refine congrArg (fun t => Ideal.div t (Ideal.ofBits .f32 0x447A0000#32)) ?_
  unfold extractAt
  rw [shapeCast_at, classSum_apply]
  refine Finset.sum_congr rfl fun c _ => ?_
  refine congrArg Cert.CenterLoss.classNorm ?_
  rw [shapeCast_self, addf_apply, subf_apply, mulf_apply, mulf_apply, broadcast_apply, col1024_apply, col1024_apply,
    laneSum1024_apply, laneSum1024_apply]
  rfl

end Cert.KernelIdeal.KerValue

end
-- ==== Proof.KerRun.lean ====
/-
  The idealized kernel's run, read: the result is the loss in its expanded-square arrangement.

  The 32 grid points walk the rows of `x` 512 at a time. By induction on the point, after point `n` the row
  accumulator holds, for class `c` and column `d`, the sum of `x j d` over the rows `j < 512 (n + 1)` labelled `c`;
  column 0 of the auxiliary accumulator the sum of the squared norms of those rows, column 1 their count. After
  the last point these are the sums over all rows, and the output block — written back once, at that point — is the
  epilogue of them and the padded centers: the expanded-square loss. The reshape after the region copies it to the
  scalar result.
-/
import proofs.«118221_g120259084421_cont_main3_733_3_alg».proof.Proof.Gen.KernelIdeal.Frame
import proofs.«118221_g120259084421_cont_main3_733_3_alg».proof.Proof.LossSpec
import proofs.«118221_g120259084421_cont_main3_733_3_alg».proof.Proof.BlockSums
import proofs.«118221_g120259084421_cont_main3_733_3_alg».proof.Proof.KerPieces
import proofs.«118221_g120259084421_cont_main3_733_3_alg».proof.Proof.KerBlocks
import proofs.«118221_g120259084421_cont_main3_733_3_alg».proof.Proof.KerPayload
import Idealize.ShloMosaic.Lib.ValueIdx
import Idealize.ShloMosaic.Lib.Pipeline.Value
import Idealize.ShloMosaic.Lib.StableHlo.Run

set_option maxRecDepth 16384

noncomputable section

namespace Cert.KernelIdeal.KerValue

open Idealize.ShloMosaic Idealize.ShloMosaic.ValueIdx Idealize.ShloMosaic.TcCoe Idealize.SL.Sem
open Idealize.ShloMosaic.Pipeline (Dat)
open Cert.KernelIdeal Cert.KernelIdeal.Gen Cert.CenterLoss

variable (m : (ℓ : Loc nD τ sig) → Buf (Elt Ideal) ℓ) (ρ : Dev nD → PrngReg)

/-! ## The three per-row terms -/

/-- Row `j`'s contribution to `S_c d`. -/
def rowTerm (c : Dev nD) (cl d : Fin 1024) (j : Fin 16384) : EReal :=
  if (labArg m c (ix1 j)).toInt = (cl.val : ℤ) then xArg m c (ix2 j d) else 0
/-- Row `j`'s contribution to `T_c`. -/
def sqTerm (c : Dev nD) (cl : Fin 1024) (j : Fin 16384) : EReal :=
  if (labArg m c (ix1 j)).toInt = (cl.val : ℤ) then ∑ d : Fin 1024, xArg m c (ix2 j d) * xArg m c (ix2 j d) else 0
/-- Row `j`'s contribution to `n_c`. -/
def cntTerm (c : Dev nD) (cl : Fin 1024) (j : Fin 16384) : EReal :=
  if (labArg m c (ix1 j)).toInt = (cl.val : ℤ) then Ideal.ofBits .f32 0x3F800000#32 else 0

theorem N32 : cfg0.N = 32 := N_0

theorem lt32 (t : Fin cfg0.N) : t.val < 32 := lt_of_lt_of_eq t.isLt N32

/-- Row `b` of block `t` is one of the 16384 rows. -/
theorem blk_lt (t : Fin cfg0.N) (b : Fin 512) : 512 * t.val + b.val < 16384 := by
  have := lt32 t; have := b.isLt; omega

/-! ## One block's contribution, in the argument arrays' terms -/

theorem block_rows (c : Dev nD) (t : Fin cfg0.N) (cl d : Fin 1024) :
    (∑ b : Fin 512, if (labBlk m c t (ix3 (0 : Fin 1) (0 : Fin 1) b)).toInt = (cl.val : ℤ) then xBlk m c t (ix2 b d) else 0)
      = ∑ b : Fin 512, rowTerm m c cl d ⟨512 * t.val + b.val, blk_lt t b⟩ := by
  refine Finset.sum_congr rfl fun b _ => ?_
  rw [labBlk_apply m c t b ⟨512 * t.val + b.val, blk_lt t b⟩ rfl,
    xBlk_apply m c t b d ⟨512 * t.val + b.val, blk_lt t b⟩ rfl]
  rfl

theorem block_sq (c : Dev nD) (t : Fin cfg0.N) (cl : Fin 1024) :
    (∑ b : Fin 512, if (labBlk m c t (ix3 (0 : Fin 1) (0 : Fin 1) b)).toInt = (cl.val : ℤ) then
        ∑ d : Fin 1024, xBlk m c t (ix2 b d) * xBlk m c t (ix2 b d) else 0)
      = ∑ b : Fin 512, sqTerm m c cl ⟨512 * t.val + b.val, blk_lt t b⟩ := by
  refine Finset.sum_congr rfl fun b _ => ?_
  rw [labBlk_apply m c t b ⟨512 * t.val + b.val, blk_lt t b⟩ rfl]
  unfold sqTerm
  by_cases hl : (labArg m c (ix1 (⟨512 * t.val + b.val, blk_lt t b⟩ : Fin 16384))).toInt = (cl.val : ℤ)
  · rw [if_pos hl, if_pos hl]
    exact Finset.sum_congr rfl fun d _ => by rw [xBlk_apply m c t b d ⟨512 * t.val + b.val, blk_lt t b⟩ rfl]
  · rw [if_neg hl, if_neg hl]

theorem block_cnt (c : Dev nD) (t : Fin cfg0.N) (cl : Fin 1024) :
    (∑ b : Fin 512, if (labBlk m c t (ix3 (0 : Fin 1) (0 : Fin 1) b)).toInt = (cl.val : ℤ) then Ideal.ofBits .f32 0x3F800000#32 else 0)
      = ∑ b : Fin 512, cntTerm m c cl ⟨512 * t.val + b.val, blk_lt t b⟩ := by
  refine Finset.sum_congr rfl fun b _ => ?_
  rw [labBlk_apply m c t b ⟨512 * t.val + b.val, blk_lt t b⟩ rfl]
  rfl

/-! ## What the accumulators hold after each point, by the case the point is in -/

/-- The row accumulator after point `t` is the block's update of `prev`, where `prev` is the zero fill at the first
    point and what the point before left at the others. -/
theorem rows_first (c : Dev nD) (h : 0 < cfg0.N) :
    (outsAt0 m c 0 h).2.1 = k0_pay6 (xBlk m c ⟨0, h⟩) (labBlk m c ⟨0, h⟩) (k0_pay3 (F := Ideal)) := by
  rw [outsAt0_A m c ⟨0, h⟩ rfl (by dsimp only; omega)]
  dsimp only
  exact rowsA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩) (iblk m c 2 ⟨0, h⟩)

theorem aux_first (c : Dev nD) (h : 0 < cfg0.N) :
    (outsAt0 m c 0 h).2.2 = k0_pay1 (k0_pay7 (xBlk m c ⟨0, h⟩) (labBlk m c ⟨0, h⟩) (k0_pay4 (F := Ideal))) := by
  rw [outsAt0_A m c ⟨0, h⟩ rfl (by dsimp only; omega)]
  dsimp only
  exact auxA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩) (iblk m c 2 ⟨0, h⟩)

theorem rows_next (c : Dev nD) (n : ℕ) (h : n + 1 < cfg0.N) :
    (outsAt0 m c (n + 1) h).2.1
      = k0_pay6 (xBlk m c ⟨n + 1, h⟩) (labBlk m c ⟨n + 1, h⟩) (outsAt0 m c n (Nat.lt_of_succ_lt h)).2.1 := by
  have hN : n + 1 < 32 := lt_of_lt_of_eq h N32
  have h0 : ¬(⟨n + 1, h⟩ : Fin cfg0.N).val % 32 = 0 := by dsimp only; omega
  by_cases h1 : (⟨n + 1, h⟩ : Fin cfg0.N).val % 32 = 31
  · rw [outsAt0_C m c ⟨n + 1, h⟩ h0 h1]
    dsimp only
    exact rowsC (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _
  · rw [outsAt0_B m c ⟨n + 1, h⟩ h0 h1]
    dsimp only
    exact rowsB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _

theorem aux_next (c : Dev nD) (n : ℕ) (h : n + 1 < cfg0.N) :
    (outsAt0 m c (n + 1) h).2.2
      = k0_pay1 (k0_pay7 (xBlk m c ⟨n + 1, h⟩) (labBlk m c ⟨n + 1, h⟩) (outsAt0 m c n (Nat.lt_of_succ_lt h)).2.2) := by
  have hN : n + 1 < 32 := lt_of_lt_of_eq h N32
  have h0 : ¬(⟨n + 1, h⟩ : Fin cfg0.N).val % 32 = 0 := by dsimp only; omega
  by_cases h1 : (⟨n + 1, h⟩ : Fin cfg0.N).val % 32 = 31
  · rw [outsAt0_C m c ⟨n + 1, h⟩ h0 h1]
    dsimp only
    exact auxC (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _
  · rw [outsAt0_B m c ⟨n + 1, h⟩ h0 h1]
    dsimp only
    exact auxB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _

/-! ## The induction over the points -/

/-- After point `n` the row accumulator holds the sums over the rows before `512 (n + 1)`. -/
theorem rows_inv (c : Dev nD) (cl d : Fin 1024) : ∀ (n : ℕ) (h : n < cfg0.N),
    (outsAt0 m c n h).2.1 (ix2 cl d) = partialSum (rowTerm m c cl d) (n + 1)
  | 0, h => by
    rw [rows_first m c h, rowAcc_apply, zeroRows_apply, block_rows m c ⟨0, h⟩ cl d,
      partialSum_succ (rowTerm m c cl d) 0 (by decide), partialSum_zero]
  | n + 1, h => by
    have hN : n + 1 < 32 := lt_of_lt_of_eq h N32
    rw [rows_next m c n h, rowAcc_apply, rows_inv c cl d n (Nat.lt_of_succ_lt h), block_rows m c ⟨n + 1, h⟩ cl d,
      partialSum_succ (rowTerm m c cl d) (n + 1) hN]

/-- After point `n` column 0 of the auxiliary accumulator holds the squared norms summed over the rows before `512 (n + 1)`. -/
theorem sq_inv (c : Dev nD) (cl : Fin 1024) : ∀ (n : ℕ) (h : n < cfg0.N),
    (outsAt0 m c n h).2.2 (ix2 cl (0 : Fin 128)) = partialSum (sqTerm m c cl) (n + 1)
  | 0, h => by
    rw [aux_first m c h, auxAcc_sq_apply, zeroAux_apply, block_sq m c ⟨0, h⟩ cl,
      partialSum_succ (sqTerm m c cl) 0 (by decide), partialSum_zero]
  | n + 1, h => by
    have hN : n + 1 < 32 := lt_of_lt_of_eq h N32
    rw [aux_next m c n h, auxAcc_sq_apply, sq_inv c cl n (Nat.lt_of_succ_lt h), block_sq m c ⟨n + 1, h⟩ cl,
      partialSum_succ (sqTerm m c cl) (n + 1) hN]

/-- After point `n` column 1 of the auxiliary accumulator counts the rows before `512 (n + 1)`. -/
theorem cnt_inv (c : Dev nD) (cl : Fin 1024) : ∀ (n : ℕ) (h : n < cfg0.N),
    (outsAt0 m c n h).2.2 (ix2 cl (1 : Fin 128)) = partialSum (cntTerm m c cl) (n + 1)
  | 0, h => by
    rw [aux_first m c h, auxAcc_count_apply, zeroAux_apply, block_cnt m c ⟨0, h⟩ cl,
      partialSum_succ (cntTerm m c cl) 0 (by decide), partialSum_zero]
  | n + 1, h => by
    have hN : n + 1 < 32 := lt_of_lt_of_eq h N32
    rw [aux_next m c n h, auxAcc_count_apply, cnt_inv c cl n (Nat.lt_of_succ_lt h), block_cnt m c ⟨n + 1, h⟩ cl,
      partialSum_succ (cntTerm m c cl) (n + 1) hN]

/-! ## The last point's output block -/

theorem h31 : 31 < cfg0.N := by rw [N32]; decide

/-- The output block after the last point: the epilogue of the padded centers and the two accumulators. -/
theorem out_last (c : Dev nD) (n : ℕ) (h : n + 1 < cfg0.N) (hl : n + 1 = 31) :
    (outsAt0 m c (n + 1) h).1
      = k0_pay2 (cenBlk m c ⟨n + 1, h⟩)
          (k0_pay6 (xBlk m c ⟨n + 1, h⟩) (labBlk m c ⟨n + 1, h⟩) (outsAt0 m c n (Nat.lt_of_succ_lt h)).2.1)
          (colAt 0 (k0_pay1 (k0_pay7 (xBlk m c ⟨n + 1, h⟩) (labBlk m c ⟨n + 1, h⟩) (outsAt0 m c n (Nat.lt_of_succ_lt h)).2.2)))
          (colAt 1 (k0_pay1 (k0_pay7 (xBlk m c ⟨n + 1, h⟩) (labBlk m c ⟨n + 1, h⟩) (outsAt0 m c n (Nat.lt_of_succ_lt h)).2.2))) := by
  have h0 : ¬(⟨n + 1, h⟩ : Fin cfg0.N).val % 32 = 0 := by dsimp only; omega
  have h1 : (⟨n + 1, h⟩ : Fin cfg0.N).val % 32 = 31 := by dsimp only; omega
  rw [outsAt0_C m c ⟨n + 1, h⟩ h0 h1]
  dsimp only
  exact outC (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _

/-- The loss, as the run leaves it in the 1×1 output array. -/
abbrev lossBlock (c : Dev nD) : Vec Ideal S1x1 .f32 :=
  fun _ => lossExpanded (xArg m c) (labArg m c) (cenArg m c)

/-- The output block after the last point is the expanded-square loss. -/
theorem out_last_eq (c : Dev nD) : ∀ (k : ℕ) (h : k < cfg0.N), k = 31 → (outsAt0 m c k h).1 = lossBlock m c
  | 0, _, hk => by omega
  | n + 1, h, hl => by
    have h32 : n + 1 + 1 = 32 := by omega
    rw [out_last m c n h hl, ← rows_next m c n h, ← aux_next m c n h]
    funext i
    rw [epilogue_apply]
    show _ = lossExpanded (xArg m c) (labArg m c) (cenArg m c)
    unfold lossExpanded
    refine congrArg (fun z => Ideal.div z _) ?_
    refine Finset.sum_congr rfl fun cl _ => ?_
    refine congrArg classNorm ?_
    unfold classExpanded
    have hsq : colAt 0 (outsAt0 m c (n + 1) h).2.2 (ix2 cl (0 : Fin 1)) = sqSum (xArg m c) (labArg m c) cl := by
      show (outsAt0 m c (n + 1) h).2.2 (ix2 cl (0 : Fin 128)) = _
      rw [sq_inv m c cl (n + 1) h, h32, partialSum_all]; rfl
    have hcnt : colAt 1 (outsAt0 m c (n + 1) h).2.2 (ix2 cl (0 : Fin 1)) = count (labArg m c) cl := by
      show (outsAt0 m c (n + 1) h).2.2 (ix2 cl (1 : Fin 128)) = _
      rw [cnt_inv m c cl (n + 1) h, h32, partialSum_all]; rfl
    have hrow : ∀ d : Fin 1024, (outsAt0 m c (n + 1) h).2.1 (ix2 cl d) = rowSum (xArg m c) (labArg m c) cl d := fun d => by
      rw [rows_inv m c cl d (n + 1) h, h32, partialSum_all]; rfl
    have hcen : ∀ d : Fin 1024, cenBlk m c ⟨n + 1, h⟩ (ix2 cl d) = cenPad (cenArg m c) cl d := fun d => cenBlk_apply m c _ cl d
    rw [hsq, hcnt]
    simp only [hrow, hcen]

/-! ## The write-back, the array, the tail and the run -/

/-- Window 3's index map is constant: its one block sits at the origin at every point. -/
theorem out_index_zero : ∀ t : Fin cfg0.N, (fun a => win0_3.index t a * main_v2.ty.shape.size a) = fun _ => 0 :=
  (by decide +kernel : ∀ t : Fin grid0.N, (fun a => win0_3.index t a * main_v2.ty.shape.size a) = fun _ => 0)

/-- The one write-back, at the last point, writes the loss: block (0, 0) of the 1×1 array is the array. -/
theorem flushed_eq (c : Dev nD) (t : Fin cfg0.N) (hf : (cfg0.win 3).flush t = true) :
    (dats m 0 c).flushed 3 t = ((cfg0.win 3).blk t).view.read (Elt Ideal) (lossBlock m c) := by
  have h3 : t.val = 31 := by have := (flush0_3 t).mp hf; have := lt32 t; omega
  show (cfg0.win 3).cut (grid0.coords t) ((dats m 0 c).after 3 t) = _
  rw [after0_3, out_last_eq m c t.val t.isLt h3]
  have hz' := out_index_zero t
  exact (Memref.read_access_unit_zero (Elt Ideal) main_v2 hz' (fun a => by rw [congrFun hz' a]; simp) (lossBlock m c)).symm

/-- So the output array ends holding the loss. -/
theorem final_out (c : Dev nD) : (dats m 0 c).arrAt 3 cfg0.N = lossBlock m c :=
  (dats m 0 c).arrAt_eq_of_cover 3 (lossBlock m c) (flushed_eq m c) fun i =>
    ⟨⟨31, h31⟩, (flush0_3 ⟨31, h31⟩).mpr rfl, by
      show i ∈ ((View.whole main_v2).slice (win0_3.rect ⟨31, h31⟩)).set
      rw [View.set_slice_whole, Rect.mem_set_unit]
      intro a
      have h0 : (i 0 : Nat) < 1 := (i 0).isLt
      have h1 : (i 1 : Nat) < 1 := (i 1).isLt
      match a with
      | ⟨0, _⟩ => show win0_3.index ⟨31, h31⟩ 0 * win0_3.size 0 ≤ (i 0 : Nat) ∧ (i 0 : Nat) < win0_3.index ⟨31, h31⟩ 0 * win0_3.size 0 + win0_3.xsize (grid0.coords ⟨31, h31⟩) 0
                  rw [show win0_3.index ⟨31, h31⟩ 0 * win0_3.size 0 = 0 from by decide +kernel, show win0_3.xsize (grid0.coords ⟨31, h31⟩) 0 = 1 from by decide +kernel]; omega
      | ⟨1, _⟩ => show win0_3.index ⟨31, h31⟩ 1 * win0_3.size 1 ≤ (i 1 : Nat) ∧ (i 1 : Nat) < win0_3.index ⟨31, h31⟩ 1 * win0_3.size 1 + win0_3.xsize (grid0.coords ⟨31, h31⟩) 1
                  rw [show win0_3.index ⟨31, h31⟩ 1 * win0_3.size 1 = 0 from by decide +kernel, show win0_3.xsize (grid0.coords ⟨31, h31⟩) 1 = 1 from by decide +kernel]; omega⟩

/-- The reshape after the region copies the one element of the 1×1 array to the scalar result. -/
theorem tail_eq (c : Dev nD) :
    Pipeline.afterTail₀ cfgs (dats m) 0 (V0 m) [hostOps1] c main_v3
      = (fun _ => lossExpanded (xArg m c) (labArg m c) (cenArg m c)) := by
  unfold Pipeline.afterTail₀
  show StableHlo.after hostOps1 _ (Proc.devRef .tc main_v3) = _
  after_results
  rw [(Pipeline.withArrays_arr spec0 launch0.win.arr_inj c _ _ 3).trans (final_out m c)]
  rfl

/-- The run, read: the scalar result is the expanded-square loss of the argument arrays, which end unchanged. -/
theorem run : θ_run (defs (F := Ideal)) (onTc (τ := τ) (main (F := Ideal))) ⟨m, fun _ => 0, ρ⟩ (fun r => ∀ c : Dev nD,
      r.2.mem ((c.tc : Thread nD τ).loc main_v3)
          = (fun _ => lossExpanded (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.lean ====
/-
  The certificate of the center-loss kernel against its jnp reference, over the extended reals.

  Both programs compute `(∑_c N(p_c)) / 1000`, `N p = √p` where `p > 0` and `0` elsewhere, of a per-class sum `p_c`
  over the rows `R_c` labelled `c`. The reference gathers each row's center, sums the squared differences over the
  columns and scatter-adds them by label into 1000 classes: `p_c = ∑_{j ∈ R_c} ∑_d (x j d − centers c d)²`
  (a row whose label is outside `0 … 999` lands nowhere, whatever its gathered row holds). The kernel walks the rows
  512 at a time and accumulates, through one-hot matrix products, the per-class row sums `S_c`, squared-norm sums
  `T_c` and counts `n_c` over 1024 classes, the centers padded with 24 zero rows, and forms
  `p_c = T_c − 2 · ∑_d S_c d · centers c d + n_c · ∑_d (centers c d)²` at the last grid point. Over finite inputs
  the two `p_c` agree for `c < 1000` (the square expanded, the sums exchanged); for `1000 ≤ c < 1024` the kernel's
  `p_c` is `T_c`, which is `0` exactly when no row carries such a label — the precondition's conjunct
  `labels < 1000` — and then `N 0 = 0` adds nothing.

  The two idealized runs are read in Proof/KerRun.lean (the kernel's frame run, by induction over the grid) and
  Proof/RefRun.lean with Proof/RefRead.lean (the host program's operations composed, then read at an index); the
  law that joins them is Proof/LossAlgebra.lean, under the facts Proof/PreFacts.lean reads off the precondition.
-/
import proofs.«118221_g120259084421_cont_main3_733_3_alg».proof.Defs
import proofs.«118221_g120259084421_cont_main3_733_3_alg».proof.Proof.Gen.Kernel
import proofs.«118221_g120259084421_cont_main3_733_3_alg».proof.Proof.Gen.Kernel.Skeleton
import proofs.«118221_g120259084421_cont_main3_733_3_alg».proof.Proof.Gen.Kernel.Launch
import proofs.«118221_g120259084421_cont_main3_733_3_alg».proof.Proof.Gen.Kernel.Points
import proofs.«118221_g120259084421_cont_main3_733_3_alg».proof.Proof.Gen.Kernel.Frame
import proofs.«118221_g120259084421_cont_main3_733_3_alg».proof.Proof.Gen.KernelIdeal
import proofs.«118221_g120259084421_cont_main3_733_3_alg».proof.Proof.Gen.KernelIdeal.Skeleton
import proofs.«118221_g120259084421_cont_main3_733_3_alg».proof.Proof.Gen.KernelIdeal.Launch
import proofs.«118221_g120259084421_cont_main3_733_3_alg».proof.Proof.Gen.KernelIdeal.Points
import proofs.«118221_g120259084421_cont_main3_733_3_alg».proof.Proof.Gen.KernelIdeal.Frame
import proofs.«118221_g120259084421_cont_main3_733_3_alg».proof.Proof.Gen.ReferenceIdeal
import proofs.«118221_g120259084421_cont_main3_733_3_alg».proof.Proof.Gen.Pre_finite_inputs
import proofs.«118221_g120259084421_cont_main3_733_3_alg».proof.Proof.LossSpec
import proofs.«118221_g120259084421_cont_main3_733_3_alg».proof.Proof.LossAlgebra
import proofs.«118221_g120259084421_cont_main3_733_3_alg».proof.Proof.PreFacts
import proofs.«118221_g120259084421_cont_main3_733_3_alg».proof.Proof.RefRun
import proofs.«118221_g120259084421_cont_main3_733_3_alg».proof.Proof.RefRead
import proofs.«118221_g120259084421_cont_main3_733_3_alg».proof.Proof.KerRun
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- From memories agreeing on the arguments the kernel ends at the expanded-square loss and the reference at the
    loss of squared distances; under the precondition (finite `x` and `centers`, every label below 1000) they are
    one number. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2, Cert.ReferenceIdeal.RefValue.result_eq]
  obtain ⟨hx, hc, hlab⟩ := Cert.Pre_finite_inputs.Decode.of_pre _ _ _ (hpre c)
  exact funext fun _ => (Cert.CenterLoss.lossExpanded_eq_lossDist _ _ _ hx hc hlab).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
